-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v20)) (v7 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v20) = v6 c
          ∧ r.2.mem ((c.tc : Thread Cert.KernelIdeal.nD Cert.KernelIdeal.τ).loc Cert.KernelIdeal.main_v23) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x2048 : Shape := ⟨2, ![1024, 2048]⟩
abbrev S2048x2048 : Shape := ⟨2, ![2048, 2048]⟩
abbrev S3072x2048 : Shape := ⟨2, ![3072, 2048]⟩
abbrev S512x2048 : Shape := ⟨2, ![512, 2048]⟩
abbrev S1536x2048 : Shape := ⟨2, ![1536, 2048]⟩
abbrev S2560x2048 : Shape := ⟨2, ![2560, 2048]⟩
abbrev S768x2048 : Shape := ⟨2, ![768, 2048]⟩
abbrev S2048x8192 : Shape := ⟨2, ![2048, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S1536x2048 : S_.BroadcastsInDim S1536x2048 (![] : Fin 0 → Fin S1536x2048.rank)
  reducesTo_S1536x2048_S_d0_1 : S1536x2048.ReducesTo [0, 1] S_
  bcast_S_S2560x2048 : S_.BroadcastsInDim S2560x2048 (![] : Fin 0 → Fin S2560x2048.rank)
  reducesTo_S2560x2048_S_d0_1 : S2560x2048.ReducesTo [0, 1] S_
  bcast_S_S768x2048 : S_.BroadcastsInDim S768x2048 (![] : Fin 0 → Fin S768x2048.rank)
  reducesTo_S768x2048_S_d0_1 : S768x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part4 {F : FTy → Type} [FloatOps F] (main_arg14 : FVec F S2048x8192 .f32) (main_arg15 : FVec F S2048x8192 .f32) (main_v63 : IVec S_ 1) (main_v67 : IVec S_ 1) : IVec S_ 1 :=
  let main_v68 : IVec S_ 1 := andi main_v63 main_v67
  let main_v69 : FVec F S2048x8192 .f32 := Host.absf main_arg14
  let main_cst_26 : FVec F S_ .f32 := constant S_ .f32 0x7F800000#32
  let main_v70 : FVec F S2048x8192 .f32 := broadcastInDim S2048x8192 ![] bcast_S_S2048x8192 main_cst_26
  let main_v71 : IVec S2048x8192 1 := cmpf .olt main_v69 main_v70
  let main_c_27 : IVec S_ 1 := constantI S_ 1 1#1
  let main_v72 : IVec S_ 1 := (fun x v => Host.reduce IntOp.andi x v reducesTo_S2048x8192_S_d0_1 h_S_) main_v71 main_c_27
  let main_v73 : IVec S_ 1 := andi main_v68 main_v72
  let main_v74 : FVec F S2048x8192 .f32 := Host.absf main_arg15
  let main_cst_28 : FVec F S_ .f32 := constant S_ .f32 0x7F800000#32
  let main_v75 : FVec F S2048x8192 .f32 := broadcastInDim S2048x8192 ![] bcast_S_S2048x8192 main_cst_28
  let main_v76 : IVec S2048x8192 1 := cmpf .olt main_v74 main_v75
  let main_c_29 : IVec S_ 1 := constantI S_ 1 1#1
  let main_v77 : IVec S_ 1 := (fun x v => Host.reduce IntOp.andi x v reducesTo_S2048x8192_S_d0_1 h_S_) main_v76 main_c_29
  let main_v78 : IVec S_ 1 := andi main_v73 main_v77
  main_v78

def fn_part3 {F : FTy → Type} [FloatOps F] (main_arg11 : FVec F S2048x8192 .f32) (main_arg12 : FVec F S2048x8192 .f32) (main_arg13 : FVec F S2048x8192 .f32) (main_arg14 : FVec F S2048x8192 .f32) (main_arg15 : FVec F S2048x8192 .f32) (main_v48 : IVec S_ 1) (main_v49 : FVec F S2048x8192 .f32) (main_v50 : FVec F S2048x8192 .f32) : IVec S_ 1 :=
  let main_v51 : IVec S2048x8192 1 := cmpf .olt main_v49 main_v50
  let main_c_19 : IVec S_ 1 := constantI S_ 1 1#1
  let main_v52 : IVec S_ 1 := (fun x v => Host.reduce IntOp.andi x v reducesTo_S2048x8192_S_d0_1 h_S_) main_v51 main_c_19
  let main_v53 : IVec S_ 1 := andi main_v48 main_v52
  let main_v54 : FVec F S2048x8192 .f32 := Host.absf main_arg11
  let main_cst_20 : FVec F S_ .f32 := constant S_ .f32 0x7F800000#32
  let main_v55 : FVec F S2048x8192 .f32 := broadcastInDim S2048x8192 ![] bcast_S_S2048x8192 main_cst_20
  let main_v56 : IVec S2048x8192 1 := cmpf .olt main_v54 main_v55
  let main_c_21 : IVec S_ 1 := constantI S_ 1 1#1
  let main_v57 : IVec S_ 1 := (fun x v => Host.reduce IntOp.andi x v reducesTo_S2048x8192_S_d0_1 h_S_) main_v56 main_c_21
  let main_v58 : IVec S_ 1 := andi main_v53 main_v57
  let main_v59 : FVec F S2048x8192 .f32 := Host.absf main_arg12
  let main_cst_22 : FVec F S_ .f32 := constant S_ .f32 0x7F800000#32
  let main_v60 : FVec F S2048x8192 .f32 := broadcastInDim S2048x8192 ![] bcast_S_S2048x8192 main_cst_22
  let main_v61 : IVec S2048x8192 1 := cmpf .olt main_v59 main_v60
  let main_c_23 : IVec S_ 1 := constantI S_ 1 1#1
  let main_v62 : IVec S_ 1 := (fun x v => Host.reduce IntOp.andi x v reducesTo_S2048x8192_S_d0_1 h_S_) main_v61 main_c_23
  let main_v63 : IVec S_ 1 := andi main_v58 main_v62
  let main_v64 : FVec F S2048x8192 .f32 := Host.absf main_arg13
  let main_cst_24 : FVec F S_ .f32 := constant S_ .f32 0x7F800000#32
  let main_v65 : FVec F S2048x8192 .f32 := broadcastInDim S2048x8192 ![] bcast_S_S2048x8192 main_cst_24
  let main_v66 : IVec S2048x8192 1 := cmpf .olt main_v64 main_v65
  let main_c_25 : IVec S_ 1 := constantI S_ 1 1#1
  let main_v67 : IVec S_ 1 := (fun x v => Host.reduce IntOp.andi x v reducesTo_S2048x8192_S_d0_1 h_S_) main_v66 main_c_25
  fn_part4 (F := F) main_arg14 main_arg15 main_v63 main_v67

def fn_part2 {F : FTy → Type} [FloatOps F] (main_arg7 : FVec F S768x2048 .f32) (main_arg8 : FVec F S2048x8192 .f32) (main_arg9 : FVec F S2048x8192 .f32) (main_arg10 : FVec F S2048x8192 .f32) (main_arg11 : FVec F S2048x8192 .f32) (main_arg12 : FVec F S2048x8192 .f32) (main_arg13 : FVec F S2048x8192 .f32) (main_arg14 : FVec F S2048x8192 .f32) (main_arg15 : FVec F S2048x8192 .f32) (main_v33 : IVec S_ 1) : IVec S_ 1 :=
  let main_v34 : FVec F S768x2048 .f32 := Host.absf main_arg7
  let main_cst_12 : FVec F S_ .f32 := constant S_ .f32 0x7F800000#32
  let main_v35 : FVec F S768x2048 .f32 := broadcastInDim S768x2048 ![] bcast_S_S768x2048 main_cst_12
  let main_v36 : IVec S768x2048 1 := cmpf .olt main_v34 main_v35
  let main_c_13 : IVec S_ 1 := constantI S_ 1 1#1
  let main_v37 : IVec S_ 1 := (fun x v => Host.reduce IntOp.andi x v reducesTo_S768x2048_S_d0_1 h_S_) main_v36 main_c_13
  let main_v38 : IVec S_ 1 := andi main_v33 main_v37
  let main_v39 : FVec F S2048x8192 .f32 := Host.absf main_arg8
  let main_cst_14 : FVec F S_ .f32 := constant S_ .f32 0x7F800000#32
  let main_v40 : FVec F S2048x8192 .f32 := broadcastInDim S2048x8192 ![] bcast_S_S2048x8192 main_cst_14
  let main_v41 : IVec S2048x8192 1 := cmpf .olt main_v39 main_v40
  let main_c_15 : IVec S_ 1 := constantI S_ 1 1#1
  let main_v42 : IVec S_ 1 := (fun x v => Host.reduce IntOp.andi x v reducesTo_S2048x8192_S_d0_1 h_S_) main_v41 main_c_15
  let main_v43 : IVec S_ 1 := andi main_v38 main_v42
  let main_v44 : FVec F S2048x8192 .f32 := Host.absf main_arg9
  let main_cst_16 : FVec F S_ .f32 := constant S_ .f32 0x7F800000#32
  let main_v45 : FVec F S2048x8192 .f32 := broadcastInDim S2048x8192 ![] bcast_S_S2048x8192 main_cst_16
  let main_v46 : IVec S2048x8192 1 := cmpf .olt main_v44 main_v45
  let main_c_17 : IVec S_ 1 := constantI S_ 1 1#1
  let main_v47 : IVec S_ 1 := (fun x v => Host.reduce IntOp.andi x v reducesTo_S2048x8192_S_d0_1 h_S_) main_v46 main_c_17
  let main_v48 : IVec S_ 1 := andi main_v43 main_v47
  let main_v49 : FVec F S2048x8192 .f32 := Host.absf main_arg10
  let main_cst_18 : FVec F S_ .f32 := constant S_ .f32 0x7F800000#32
  let main_v50 : FVec F S2048x8192 .f32 := broadcastInDim S2048x8192 ![] bcast_S_S2048x8192 main_cst_18
  fn_part3 (F := F) main_arg11 main_arg12 main_arg13 main_arg14 main_arg15 main_v48 main_v49 main_v50

def fn_part1 {F : FTy → Type} [FloatOps F] (main_arg4 : FVec F S512x2048 .f32) (main_arg5 : FVec F S1536x2048 .f32) (main_arg6 : FVec F S2560x2048 .f32) (main_arg7 : FVec F S768x2048 .f32) (main_arg8 : FVec F S2048x8192 .f32) (main_arg9 : FVec F S2048x8192 .f32) (main_arg10 : FVec F S2048x8192 .f32) (main_arg11 : FVec F S2048x8192 .f32) (main_arg12 : FVec F S2048x8192 .f32) (main_arg13 : FVec F S2048x8192 .f32) (main_arg14 : FVec F S2048x8192 .f32) (main_arg15 : FVec F S2048x8192 .f32) (main_v13 : IVec S_ 1) (main_v16 : IVec S3072x2048 1) : IVec S_ 1 :=
  let main_c_5 : IVec S_ 1 := constantI S_ 1 1#1
  let main_v17 : IVec S_ 1 := (fun x v => Host.reduce IntOp.andi x v reducesTo_S3072x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S1536x2048 .f32 := Host.absf main_arg5
  let main_cst_8 : FVec F S_ .f32 := constant S_ .f32 0x7F800000#32
  let main_v25 : FVec F S1536x2048 .f32 := broadcastInDim S1536x2048 ![] bcast_S_S1536x2048 main_cst_8
  let main_v26 : IVec S1536x2048 1 := cmpf .olt main_v24 main_v25
  let main_c_9 : IVec S_ 1 := constantI S_ 1 1#1
  let main_v27 : IVec S_ 1 := (fun x v => Host.reduce IntOp.andi x v reducesTo_S1536x2048_S_d0_1 h_S_) main_v26 main_c_9
  let main_v28 : IVec S_ 1 := andi main_v23 main_v27
  let main_v29 : FVec F S2560x2048 .f32 := Host.absf main_arg6
  let main_cst_10 : FVec F S_ .f32 := constant S_ .f32 0x7F800000#32
  let main_v30 : FVec F S2560x2048 .f32 := broadcastInDim S2560x2048 ![] bcast_S_S2560x2048 main_cst_10
  let main_v31 : IVec S2560x2048 1 := cmpf .olt main_v29 main_v30
  let main_c_11 : IVec S_ 1 := constantI S_ 1 1#1
  let main_v32 : IVec S_ 1 := (fun x v => Host.reduce IntOp.andi x v reducesTo_S2560x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x2048 .f32) (main_arg1 : FVec F S1024x2048 .f32) (main_arg2 : FVec F S2048x2048 .f32) (main_arg3 : FVec F S3072x2048 .f32) (main_arg4 : FVec F S512x2048 .f32) (main_arg5 : FVec F S1536x2048 .f32) (main_arg6 : FVec F S2560x2048 .f32) (main_arg7 : FVec F S768x2048 .f32) (main_arg8 : FVec F S2048x8192 .f32) (main_arg9 : FVec F S2048x8192 .f32) (main_arg10 : FVec F S2048x8192 .f32) (main_arg11 : FVec F S2048x8192 .f32) (main_arg12 : FVec F S2048x8192 .f32) (main_arg13 : FVec F S2048x8192 .f32) (main_arg14 : FVec F S2048x8192 .f32) (main_arg15 : FVec F S2048x8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S3072x2048 .f32 := Host.absf main_arg3
  let main_cst_4 : FVec F S_ .f32 := constant S_ .f32 0x7F800000#32
  let main_v15 : FVec F S3072x2048 .f32 := broadcastInDim S3072x2048 ![] bcast_S_S3072x2048 main_cst_4
  let main_v16 : IVec S3072x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x2048 : Shape := ⟨2, ![4096, 2048]⟩
abbrev S1024x2048 : Shape := ⟨2, ![1024, 2048]⟩
abbrev S2048x2048 : Shape := ⟨2, ![2048, 2048]⟩
abbrev S3072x2048 : Shape := ⟨2, ![3072, 2048]⟩
abbrev S512x2048 : Shape := ⟨2, ![512, 2048]⟩
abbrev S1536x2048 : Shape := ⟨2, ![1536, 2048]⟩
abbrev S2560x2048 : Shape := ⟨2, ![2560, 2048]⟩
abbrev S768x2048 : Shape := ⟨2, ![768, 2048]⟩
abbrev S2048x8192 : Shape := ⟨2, ![2048, 8192]⟩
abbrev S4096x8192 : Shape := ⟨2, ![4096, 8192]⟩
abbrev S256x2048 : Shape := ⟨2, ![256, 2048]⟩
abbrev S1024x8192 : Shape := ⟨2, ![1024, 8192]⟩
abbrev S3072x8192 : Shape := ⟨2, ![3072, 8192]⟩
abbrev S512x8192 : Shape := ⟨2, ![512, 8192]⟩
abbrev S1536x8192 : Shape := ⟨2, ![1536, 8192]⟩
abbrev S2560x8192 : Shape := ⟨2, ![2560, 8192]⟩
abbrev S768x8192 : Shape := ⟨2, ![768, 8192]⟩

abbrev nBuf : Space → Nat
  | .hbm => 40
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S2048x2048, .f32⟩
  | .hbm, ⟨3, _⟩ => ⟨S3072x2048, .f32⟩
  | .hbm, ⟨4, _⟩ => ⟨S512x2048, .f32⟩
  | .hbm, ⟨5, _⟩ => ⟨S1536x2048, .f32⟩
  | .hbm, ⟨6, _⟩ => ⟨S2560x2048, .f32⟩
  | .hbm, ⟨7, _⟩ => ⟨S768x2048, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S4096x2048, .bf16⟩
  | .hbm, ⟨17, _⟩ => ⟨S2048x8192, .bf16⟩
  | .hbm, ⟨18, _⟩ => ⟨S4096x8192, .f32⟩
  | .hbm, ⟨19, _⟩ => ⟨S1024x2048, .bf16⟩
  | .hbm, ⟨20, _⟩ => ⟨S2048x8192, .bf16⟩
  | .hbm, ⟨21, _⟩ => ⟨S1024x8192, .f32⟩
  | .hbm, ⟨22, _⟩ => ⟨S2048x2048, .bf16⟩
  | .hbm, ⟨23, _⟩ => ⟨S2048x8192, .bf16⟩
  | .hbm, ⟨24, _⟩ => ⟨S2048x8192, .f32⟩
  | .hbm, ⟨25, _⟩ => ⟨S3072x2048, .bf16⟩
  | .hbm, ⟨26, _⟩ => ⟨S2048x8192, .bf16⟩
  | .hbm, ⟨27, _⟩ => ⟨S3072x8192, .f32⟩
  | .hbm, ⟨28, _⟩ => ⟨S512x2048, .bf16⟩
  | .hbm, ⟨29, _⟩ => ⟨S2048x8192, .bf16⟩
  | .hbm, ⟨30, _⟩ => ⟨S512x8192, .f32⟩
  | .hbm, ⟨31, _⟩ => ⟨S1536x2048, .bf16⟩
  | .hbm, ⟨32, _⟩ => ⟨S2048x8192, .bf16⟩
  | .hbm, ⟨33, _⟩ => ⟨S1536x8192, .f32⟩
  | .hbm, ⟨34, _⟩ => ⟨S2560x2048, .bf16⟩
  | .hbm, ⟨35, _⟩ => ⟨S2048x8192, .bf16⟩
  | .hbm, ⟨36, _⟩ => ⟨S2560x8192, .f32⟩
  | .hbm, ⟨37, _⟩ => ⟨S768x2048, .bf16⟩
  | .hbm, ⟨38, _⟩ => ⟨S2048x8192, .bf16⟩
  | .hbm, ⟨39, _⟩ => ⟨S768x8192, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S2048x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S2048x2048, .bf16⟩
  | .local _ .vmem, ⟨21, _⟩ => ⟨S2048x2048, .bf16⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S2048x2048, .bf16⟩
  | .local _ .vmem, ⟨27, _⟩ => ⟨S2048x2048, .bf16⟩
  | .local _ .vmem, ⟨28, _⟩ => ⟨S256x2048, .f32⟩
  | .local _ .vmem, ⟨29, _⟩ => ⟨S256x2048, .f32⟩
  | .local _ .vmem, ⟨30, _⟩ => ⟨S256x2048, .bf16⟩
  | .local _ .vmem, ⟨31, _⟩ => ⟨S256x2048, .bf16⟩
  | .local _ .vmem, ⟨32, _⟩ => ⟨S2048x2048, .bf16⟩
  | .local _ .vmem, ⟨33, _⟩ => ⟨S2048x2048, .bf16⟩
  | .local _ .vmem, ⟨34, _⟩ => ⟨S256x2048, .f32⟩
  | .local _ .vmem, ⟨35, _⟩ => ⟨S256x2048, .f32⟩
  | .local _ .vmem, ⟨36, _⟩ => ⟨S256x2048, .bf16⟩
  | .local _ .vmem, ⟨37, _⟩ => ⟨S256x2048, .bf16⟩
  | .local _ .vmem, ⟨38, _⟩ => ⟨S2048x2048, .bf16⟩
  | .local _ .vmem, ⟨39, _⟩ => ⟨S2048x2048, .bf16⟩
  | .local _ .vmem, ⟨40, _⟩ => ⟨S256x2048, .f32⟩
  | .local _ .vmem, ⟨41, _⟩ => ⟨S256x2048, .f32⟩
  | .local _ .vmem, ⟨42, _⟩ => ⟨S256x2048, .bf16⟩
  | .local _ .vmem, ⟨43, _⟩ => ⟨S256x2048, .bf16⟩
  | .local _ .vmem, ⟨44, _⟩ => ⟨S2048x2048, .bf16⟩
  | .local _ .vmem, ⟨45, _⟩ => ⟨S2048x2048, .bf16⟩
  | .local _ .vmem, ⟨46, _⟩ => ⟨S256x2048, .f32⟩
  | .local _ .vmem, ⟨47, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![12, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![6, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![10, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![3, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S256x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S256x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x8192.size a
  hwx0_2 : ∀ i : grid0.Coords, EltTy.bits .f32 = 32 ∨ (Rect.block (s := S4096x8192) S256x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x2048.size a
  hwx1_0 : ∀ i : grid1.Coords, EltTy.bits .bf16 = 32 ∨ (Rect.block (s := S1024x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x8192.size a
  hwx1_1 : ∀ i : grid1.Coords, EltTy.bits .bf16 = 32 ∨ (Rect.block (s := S2048x8192) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S1024x8192.size a
  hwx1_2 : ∀ i : grid1.Coords, EltTy.bits .f32 = 32 ∨ (Rect.block (s := S1024x8192) S256x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .bf16 = 32 ∨ (Rect.block (s := S2048x2048) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x8192.size a
  hwx2_1 : ∀ i : grid2.Coords, EltTy.bits .bf16 = 32 ∨ (Rect.block (s := S2048x8192) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S2048x8192.size a
  hwx2_2 : ∀ i : grid2.Coords, EltTy.bits .f32 = 32 ∨ (Rect.block (s := S2048x8192) S256x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S3072x2048.size a
  hwx3_0 : ∀ i : grid3.Coords, EltTy.bits .bf16 = 32 ∨ (Rect.block (s := S3072x2048) S256x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x8192.size a
  hwx3_1 : ∀ i : grid3.Coords, EltTy.bits .bf16 = 32 ∨ (Rect.block (s := S2048x8192) S2048x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S3072x8192.size a
  hwx3_2 : ∀ i : grid3.Coords, EltTy.bits .f32 = 32 ∨ (Rect.block (s := S3072x8192) S256x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S512x2048.size a
  hwx4_0 : ∀ i : grid4.Coords, EltTy.bits .bf16 = 32 ∨ (Rect.block (s := S512x2048) S256x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x8192.size a
  hwx4_1 : ∀ i : grid4.Coords, EltTy.bits .bf16 = 32 ∨ (Rect.block (s := S2048x8192) S2048x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S512x8192.size a
  hwx4_2 : ∀ i : grid4.Coords, EltTy.bits .f32 = 32 ∨ (Rect.block (s := S512x8192) S256x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S1536x2048.size a
  hwx5_0 : ∀ i : grid5.Coords, EltTy.bits .bf16 = 32 ∨ (Rect.block (s := S1536x2048) S256x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x2048.size a ≤ S2048x8192.size a
  hwx5_1 : ∀ i : grid5.Coords, EltTy.bits .bf16 = 32 ∨ (Rect.block (s := S2048x8192) S2048x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x2048.size a ≤ S1536x8192.size a
  hwx5_2 : ∀ i : grid5.Coords, EltTy.bits .f32 = 32 ∨ (Rect.block (s := S1536x8192) S256x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x2048.size a ≤ S2560x2048.size a
  hwx6_0 : ∀ i : grid6.Coords, EltTy.bits .bf16 = 32 ∨ (Rect.block (s := S2560x2048) S256x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x2048.size a ≤ S2048x8192.size a
  hwx6_1 : ∀ i : grid6.Coords, EltTy.bits .bf16 = 32 ∨ (Rect.block (s := S2048x8192) S2048x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x2048.size a ≤ S2560x8192.size a
  hwx6_2 : ∀ i : grid6.Coords, EltTy.bits .f32 = 32 ∨ (Rect.block (s := S2560x8192) S256x2048.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x2048.size a ≤ S768x2048.size a
  hwx7_0 : ∀ i : grid7.Coords, EltTy.bits .bf16 = 32 ∨ (Rect.block (s := S768x2048) S256x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x2048.size a ≤ S2048x8192.size a
  hwx7_1 : ∀ i : grid7.Coords, EltTy.bits .bf16 = 32 ∨ (Rect.block (s := S2048x8192) S2048x2048.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x2048.size a ≤ S768x8192.size a
  hwx7_2 : ∀ i : grid7.Coords, EltTy.bits .f32 = 32 ∨ (Rect.block (s := S768x8192) S256x2048.size (cc7_transform_2 i) (hinb7_2 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S256x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S2048x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S256x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v12) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S2048x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S256x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S2048x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S256x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v18) S256x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S2048x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v20) S256x2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v21) S256x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v22) S2048x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v23) S256x2048.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S4096x2048 : Shape := ⟨2, ![4096, 2048]⟩
abbrev S1024x2048 : Shape := ⟨2, ![1024, 2048]⟩
abbrev S2048x2048 : Shape := ⟨2, ![2048, 2048]⟩
abbrev S3072x2048 : Shape := ⟨2, ![3072, 2048]⟩
abbrev S512x2048 : Shape := ⟨2, ![512, 2048]⟩
abbrev S1536x2048 : Shape := ⟨2, ![1536, 2048]⟩
abbrev S2560x2048 : Shape := ⟨2, ![2560, 2048]⟩
abbrev S768x2048 : Shape := ⟨2, ![768, 2048]⟩
abbrev S2048x8192 : Shape := ⟨2, ![2048, 8192]⟩
abbrev S4096x8192 : Shape := ⟨2, ![4096, 8192]⟩
abbrev S1024x8192 : Shape := ⟨2, ![1024, 8192]⟩
abbrev S3072x8192 : Shape := ⟨2, ![3072, 8192]⟩
abbrev S512x8192 : Shape := ⟨2, ![512, 8192]⟩
abbrev S1536x8192 : Shape := ⟨2, ![1536, 8192]⟩
abbrev S2560x8192 : Shape := ⟨2, ![2560, 8192]⟩
abbrev S768x8192 : Shape := ⟨2, ![768, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S2048x2048, .f32⟩
  | .hbm, ⟨3, _⟩ => ⟨S3072x2048, .f32⟩
  | .hbm, ⟨4, _⟩ => ⟨S512x2048, .f32⟩
  | .hbm, ⟨5, _⟩ => ⟨S1536x2048, .f32⟩
  | .hbm, ⟨6, _⟩ => ⟨S2560x2048, .f32⟩
  | .hbm, ⟨7, _⟩ => ⟨S768x2048, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S4096x8192, .f32⟩
  | .hbm, ⟨17, _⟩ => ⟨S1024x8192, .f32⟩
  | .hbm, ⟨18, _⟩ => ⟨S2048x8192, .f32⟩
  | .hbm, ⟨19, _⟩ => ⟨S3072x8192, .f32⟩
  | .hbm, ⟨20, _⟩ => ⟨S512x8192, .f32⟩
  | .hbm, ⟨21, _⟩ => ⟨S1536x8192, .f32⟩
  | .hbm, ⟨22, _⟩ => ⟨S2560x8192, .f32⟩
  | .hbm, ⟨23, _⟩ => ⟨S768x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]

class Facts₀ : Prop where
  dot_S4096x2048_S2048x8192_S4096x8192_1_0_0_1_n_n_wf : DotDims.WF S4096x2048 S2048x8192 S4096x8192 [1] [0] [0] [1] [] []
  dot_S1024x2048_S2048x8192_S1024x8192_1_0_0_1_n_n_wf : DotDims.WF S1024x2048 S2048x8192 S1024x8192 [1] [0] [0] [1] [] []
  dot_S2048x2048_S2048x8192_S2048x8192_1_0_0_1_n_n_wf : DotDims.WF S2048x2048 S2048x8192 S2048x8192 [1] [0] [0] [1] [] []
  dot_S3072x2048_S2048x8192_S3072x8192_1_0_0_1_n_n_wf : DotDims.WF S3072x2048 S2048x8192 S3072x8192 [1] [0] [0] [1] [] []
  dot_S512x2048_S2048x8192_S512x8192_1_0_0_1_n_n_wf : DotDims.WF S512x2048 S2048x8192 S512x8192 [1] [0] [0] [1] [] []
  dot_S1536x2048_S2048x8192_S1536x8192_1_0_0_1_n_n_wf : DotDims.WF S1536x2048 S2048x8192 S1536x8192 [1] [0] [0] [1] [] []
  dot_S2560x2048_S2048x8192_S2560x8192_1_0_0_1_n_n_wf : DotDims.WF S2560x2048 S2048x8192 S2560x8192 [1] [0] [0] [1] [] []
  dot_S768x2048_S2048x8192_S768x8192_1_0_0_1_n_n_wf : DotDims.WF S768x2048 S2048x8192 S768x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S3072x2048_S2048x8192_S3072x8192_1_0_0_1_n_n : DotDims S3072x2048 S2048x8192 S3072x8192 where
  lhsContracting := [1]
  rhsContracting := [0]
  lhsNonContracting := [0]
  rhsNonContracting := [1]
  lhsBatch := []
  rhsBatch := []
  wf := dot_S3072x2048_S2048x8192_S3072x8192_1_0_0_1_n_n_wf
def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf
def dot_S1536x2048_S2048x8192_S1536x8192_1_0_0_1_n_n : DotDims S1536x2048 S2048x8192 S1536x8192 where
  lhsContracting := [1]
  rhsContracting := [0]
  lhsNonContracting := [0]
  rhsNonContracting := [1]
  lhsBatch := []
  rhsBatch := []
  wf := dot_S1536x2048_S2048x8192_S1536x8192_1_0_0_1_n_n_wf
def dot_S2560x2048_S2048x8192_S2560x8192_1_0_0_1_n_n : DotDims S2560x2048 S2048x8192 S2560x8192 where
  lhsContracting := [1]
  rhsContracting := [0]
  lhsNonContracting := [0]
  rhsNonContracting := [1]
  lhsBatch := []
  rhsBatch := []
  wf := dot_S2560x2048_S2048x8192_S2560x8192_1_0_0_1_n_n_wf
def dot_S768x2048_S2048x8192_S768x8192_1_0_0_1_n_n : DotDims S768x2048 S2048x8192 S768x8192 where
  lhsContracting := [1]
  rhsContracting := [0]
  lhsNonContracting := [0]
  rhsNonContracting := [1]
  lhsBatch := []
  rhsBatch := []
  wf := dot_S768x2048_S2048x8192_S768x8192_1_0_0_1_n_n_wf

class Facts : Prop extends Facts₀ where

variable [Facts]
-- ==== Proof.GroupGemm.lean ====
/-
  The specification of one group of the grouped matrix product: for a left operand of M rows and 2048
  columns and a right operand of 2048 rows and 8192 columns, entry (i, j) of the product is the sum over
  the shared axis of the products a(i, k) · b(k, j), taken on the extended reals. Every one of the eight
  groups is this function at its own row count M; nothing else distinguishes them.

  Addition of extended reals is commutative and associative, so the sum does not depend on the order in
  which a tiling or a schedule visits k; no finiteness of the operands is used anywhere below.
-/
import Idealize.ShloMosaic.PureOps.Ideal
import Idealize.ShloMosaic.Lib.ValueIdx

noncomputable section

open scoped BigOperators

namespace Cert.GroupGemm

open Idealize.ShloMosaic Idealize.ShloMosaic.ValueIdx

/-- The product of an M × 2048 array with a 2048 × 8192 array: entry (i, j) is Σ_k a(i, k) · b(k, j). -/
def gemm {M : Nat} (a : (⟨2, ![M, 2048]⟩ : Shape).Idx → EReal) (b : (⟨2, ![2048, 8192]⟩ : Shape).Idx → EReal) :
    (⟨2, ![M, 8192]⟩ : Shape).Idx → EReal :=
  fun i => ∑ k : Fin 2048, a (ix2 (i 0) k) * b (ix2 k (i 1))

theorem gemm_apply {M : Nat} (a : (⟨2, ![M, 2048]⟩ : Shape).Idx → EReal) (b : (⟨2, ![2048, 8192]⟩ : Shape).Idx → EReal)
    (p : Fin M) (q : Fin 8192) : gemm a b (ix2 p q) = ∑ k : Fin 2048, a (ix2 p k) * b (ix2 k q) := rfl

end Cert.GroupGemm

end
-- ==== Proof.Tile.lean ====
/-
  One tile of the product. The body of every launch loads a 256 × 2048 block of the left operand and a
  2048 × 2048 block of the right operand and stores their matrix product, accumulated from zero, into the
  256 × 2048 output block: entry (p, q) of what it stores is Σ_k x(p, k) · y(k, q) on the extended reals.
  The eight launches run the same body; their payloads are one function.
-/
import proofs.«133505_j38792144618090_1_alg».proof.Proof.Gen.KernelIdeal.Frame
import proofs.«133505_j38792144618090_1_alg».proof.Proof.GroupGemm
import Idealize.ShloMosaic.PureOps.Ideal.Laws
import Idealize.ShloMosaic.Lib.Pipeline.Value
import Idealize.ShloMosaic.Lib.ValueIdx

noncomputable section

open scoped BigOperators

namespace Cert.KernelIdeal.Tile

open Idealize.ShloMosaic Idealize.ShloMosaic.TcCoe Idealize.SL.Sem Idealize.ShloMosaic.ValueIdx
open Cert.KernelIdeal Cert.GroupGemm

/-! ## The product's operand indices

  At output index i and contraction position k the left operand is read at (i 0, k) and the right operand
  at (k, i 1): the left's axis 0 and the right's axis 1 are free, the left's axis 1 and the right's axis 0
  are the contracted pair. -/

theorem lhs_row (i : S256x2048.Idx) (k : dot_S256x2048_S2048x2048_S256x2048_1_0_0_1_n_n.contr.Idx) :
    (dot_S256x2048_S2048x2048_S256x2048_1_0_0_1_n_n.lhsIdx i k 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl

theorem lhs_col (i : S256x2048.Idx) (k : dot_S256x2048_S2048x2048_S256x2048_1_0_0_1_n_n.contr.Idx) :
    (dot_S256x2048_S2048x2048_S256x2048_1_0_0_1_n_n.lhsIdx i k 1).val = (k ⟨0, by decide⟩).val :=
  dot_S256x2048_S2048x2048_S256x2048_1_0_0_1_n_n.lhsIdx_val_of_single rfl i k

theorem rhs_row (i : S256x2048.Idx) (k : dot_S256x2048_S2048x2048_S256x2048_1_0_0_1_n_n.contr.Idx) :
    (dot_S256x2048_S2048x2048_S256x2048_1_0_0_1_n_n.rhsIdx i k 0).val = (k ⟨0, by decide⟩).val :=
  dot_S256x2048_S2048x2048_S256x2048_1_0_0_1_n_n.rhsIdx_val_of_single rfl i k

theorem rhs_col (i : S256x2048.Idx) (k : dot_S256x2048_S2048x2048_S256x2048_1_0_0_1_n_n.contr.Idx) :
    (dot_S256x2048_S2048x2048_S256x2048_1_0_0_1_n_n.rhsIdx i k 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A product accumulated from zero, read at (p, q): the sum over the shared axis of x(p, k) · y(k, q). -/
theorem matmul_zero_apply (x : FVec Ideal S256x2048 .bf16) (y : FVec Ideal S2048x2048 .bf16) (p : Fin 256) (q : Fin 2048) :
    matmul dot_S256x2048_S2048x2048_S256x2048_1_0_0_1_n_n none x y (constant S256x2048 .f32 0x00000000#32) (ix2 p q)
      = ∑ k : Fin 2048, x (ix2 p k) * y (ix2 k q) := by
  refine (Ideal.matmul_constant_zero_apply dot_S256x2048_S2048x2048_S256x2048_1_0_0_1_n_n none x y (ix2 p q)).trans ?_
  rw [← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun a => Fin.ext (by
    match a with
    | ⟨0, _⟩ => exact lhs_row _ _
    | ⟨1, _⟩ => exact (lhs_col _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun a => Fin.ext (by
    match a with
    | ⟨0, _⟩ => exact (rhs_row _ _).trans hk
    | ⟨1, _⟩ => exact rhs_col _ _)
  rw [el, er]

/-- Entry (p, q) of the stored tile is the sum over the shared axis of x(p, k) · y(k, q). -/
theorem pay_apply (x : Vec Ideal S256x2048 .bf16) (y : Vec Ideal S2048x2048 .bf16) (p : Fin 256) (q : Fin 2048) :
    Gen.k0_pay1 (F := Ideal) x y (ix2 p q) = ∑ k : Fin 2048, x (ix2 p k) * y (ix2 k q) := by
  unfold Gen.k0_pay1
  rw [shapeCast_self, shapeCast_self]
  exact matmul_zero_apply x y p q

/-- The body's loads and its store go through the whole block: both offsets are zero. -/
theorem zero_offsets : (![0, 0] : Fin 2 → Nat) = fun _ => 0 := funext fun a => by fin_cases a <;> rfl

/-- What launch 0's body leaves in its output block, read at (p, q): the tile's product. -/
theorem out0_apply (x : Vec Ideal S256x2048 .bf16) (y : Vec Ideal S2048x2048 .bf16) (p : Fin 256) (q : Fin 2048) :
    Gen.out0_2 (F := Ideal) x y (ix2 p q) = ∑ k : Fin 2048, x (ix2 p k) * y (ix2 k q) := by
  unfold Gen.out0_2
  rw [View.canon_unit_zero zero_offsets]
  simp only [View.ld_unit_zero (S := S256x2048) zero_offsets, View.ld_unit_zero (S := S2048x2048) zero_offsets]
  exact pay_apply x y p q

/-- Launch 1 runs the same body: the same product. -/
theorem out1_apply (x : Vec Ideal S256x2048 .bf16) (y : Vec Ideal S2048x2048 .bf16) (p : Fin 256) (q : Fin 2048) :
    Gen.out1_2 (F := Ideal) x y (ix2 p q) = ∑ k : Fin 2048, x (ix2 p k) * y (ix2 k q) :=
  out0_apply x y p q

/-- Launch 2 runs the same body: the same product. -/
theorem out2_apply (x : Vec Ideal S256x2048 .bf16) (y : Vec Ideal S2048x2048 .bf16) (p : Fin 256) (q : Fin 2048) :
    Gen.out2_2 (F := Ideal) x y (ix2 p q) = ∑ k : Fin 2048, x (ix2 p k) * y (ix2 k q) :=
  out0_apply x y p q

/-- Launch 3 runs the same body: the same product. -/
theorem out3_apply (x : Vec Ideal S256x2048 .bf16) (y : Vec Ideal S2048x2048 .bf16) (p : Fin 256) (q : Fin 2048) :
    Gen.out3_2 (F := Ideal) x y (ix2 p q) = ∑ k : Fin 2048, x (ix2 p k) * y (ix2 k q) :=
  out0_apply x y p q

/-- Launch 4 runs the same body: the same product. -/
theorem out4_apply (x : Vec Ideal S256x2048 .bf16) (y : Vec Ideal S2048x2048 .bf16) (p : Fin 256) (q : Fin 2048) :
    Gen.out4_2 (F := Ideal) x y (ix2 p q) = ∑ k : Fin 2048, x (ix2 p k) * y (ix2 k q) :=
  out0_apply x y p q

/-- Launch 5 runs the same body: the same product. -/
theorem out5_apply (x : Vec Ideal S256x2048 .bf16) (y : Vec Ideal S2048x2048 .bf16) (p : Fin 256) (q : Fin 2048) :
    Gen.out5_2 (F := Ideal) x y (ix2 p q) = ∑ k : Fin 2048, x (ix2 p k) * y (ix2 k q) :=
  out0_apply x y p q

/-- Launch 6 runs the same body: the same product. -/
theorem out6_apply (x : Vec Ideal S256x2048 .bf16) (y : Vec Ideal S2048x2048 .bf16) (p : Fin 256) (q : Fin 2048) :
    Gen.out6_2 (F := Ideal) x y (ix2 p q) = ∑ k : Fin 2048, x (ix2 p k) * y (ix2 k q) :=
  out0_apply x y p q

/-- Launch 7 runs the same body: the same product. -/
theorem out7_apply (x : Vec Ideal S256x2048 .bf16) (y : Vec Ideal S2048x2048 .bf16) (p : Fin 256) (q : Fin 2048) :
    Gen.out7_2 (F := Ideal) x y (ix2 p q) = ∑ k : Fin 2048, x (ix2 p k) * y (ix2 k q) :=
  out0_apply x y p q

/-! ## A tile inside the whole product

  If the left block is the array A read through a placement e₀, the right block is B read through e₁, the
  output block sits in the output array through e₂, row p of the left block lies in the output block's row
  (e₀ (p, k) = (row of e₂ (p, q), k)) and column q of the right block in its column
  (e₁ (k, q) = (k, column of e₂ (p, q))), then a block holding the tile's product holds the product of A and
  B restricted to the block. -/

theorem block_prod {M : Nat} (A : (⟨2, ![M, 2048]⟩ : Shape).Idx → EReal) (B : (⟨2, ![2048, 8192]⟩ : Shape).Idx → EReal)
    (x : Vec Ideal S256x2048 .bf16) (y : Vec Ideal S2048x2048 .bf16) (o : Vec Ideal S256x2048 .f32)
    (ho : ∀ (p : Fin 256) (q : Fin 2048), o (ix2 p q) = ∑ k : Fin 2048, x (ix2 p k) * y (ix2 k q))
    (e₀ : S256x2048.Idx → (⟨2, ![M, 2048]⟩ : Shape).Idx) (e₁ : S2048x2048.Idx → (⟨2, ![2048, 8192]⟩ : Shape).Idx)
    (e₂ : S256x2048.Idx → (⟨2, ![M, 8192]⟩ : Shape).Idx)
    (hx : ∀ u, x u = A (e₀ u)) (hy : ∀ u, y u = B (e₁ u))
    (h₀ : ∀ (j : S256x2048.Idx) (k : Fin 2048), e₀ (ix2 (j 0) k) = ix2 (e₂ j 0) k)
    (h₁ : ∀ (j : S256x2048.Idx) (k : Fin 2048), e₁ (ix2 k (j 1)) = ix2 k (e₂ j 1))
    (j : S256x2048.Idx) : o j = gemm A B (e₂ j) := by
  refine ((congrArg o (eq_ix2 j)).trans (ho (j 0) (j 1))).trans ?_
  show _ = ∑ k : Fin 2048, A (ix2 (e₂ j 0) k) * B (ix2 k (e₂ j 1))
  refine Finset.sum_congr rfl fun k _ => ?_
  exact congrArg₂ (· * ·) ((hx _).trans (congrArg A (h₀ j k))) ((hy _).trans (congrArg B (h₁ j k)))

end Cert.KernelIdeal.Tile

end
-- ==== Proof.Region0.lean ====
/-
  Group 0 (4096 rows): the output array after the launch. The grid is 16 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region0

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 16 and 4. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) < 16
    ∧ win0_2.index t (1 : Fin 2) < 4 :=
  (by decide +kernel : ∀ t : Fin grid0.N, _)

/-- Every output block is some grid point's. -/
theorem idx_onto : ∀ (a : Fin 16) (b : Fin 4), ∃ t : Fin cfg0.N, win0_2.index t = ![a.val, b.val] :=
  (by decide +kernel : ∀ (a : Fin 16) (b : Fin 4), ∃ t : Fin grid0.N, win0_2.index t = ![a.val, b.val])

/-- What grid point t writes back is block t of the product of the operand arrays found at entry. -/
theorem flushed_eq (c : Dev nD) (t : Fin cfg0.N) :
    (Gen.dat0 (F := Ideal) V c).flushed 2 t
      = ((cfg0.win 2).blk t).view.read (Elt Ideal) (gemm (M := 4096) (V c main_v0) (V c main_v1)) := by
  show (cfg0.win 2).cut (grid0.coords t) ((Gen.dat0 (F := Ideal) V c).after 2 t) = _
  rw [Gen.after0_2]
  obtain ⟨hrow, hlz, hrz, hcol, -, -⟩ := idx_facts t
  funext j
  show Gen.out0_2 (F := Ideal) (Gen.iblk0 V c 0 t) (Gen.iblk0 V c 1 t) j
    = gemm (M := 4096) (V c main_v0) (V c main_v1) (((cfg0.win 2).blk t).view.emb j)
  refine Tile.block_prod (M := 4096) (V c main_v0) (V c main_v1) (Gen.iblk0 V c 0 t) (Gen.iblk0 V c 1 t)
    (Gen.out0_2 (F := Ideal) (Gen.iblk0 V c 0 t) (Gen.iblk0 V c 1 t)) (fun p q => Tile.out0_apply _ _ p q)
    (fun u => ((cfg0.win 0).blk t).view.emb u) (fun u => ((cfg0.win 1).blk t).view.emb u)
    (fun u => ((cfg0.win 2).blk t).view.emb u) (fun _ => rfl) (fun _ => rfl) ?_ ?_ j
  · intro u k
    funext a; apply Fin.ext
    match a with
    | ⟨0, _⟩ => show win0_0.index t (0 : Fin 2) * 256 + 1 * (u 0).val = win0_2.index t (0 : Fin 2) * 256 + 1 * (u 0).val; omega
    | ⟨1, _⟩ => show win0_0.index t (1 : Fin 2) * 2048 + 1 * k.val = k.val; omega
  · intro u k
    funext a; apply Fin.ext
    match a with
    | ⟨0, _⟩ => show win0_1.index t (0 : Fin 2) * 2048 + 1 * k.val = k.val; omega
    | ⟨1, _⟩ => show win0_1.index t (1 : Fin 2) * 2048 + 1 * (u 1).val = win0_2.index t (1 : Fin 2) * 2048 + 1 * (u 1).val; omega

/-- An index of the output array lies in point t's block iff each coordinate lies in the block's range. -/
theorem mem_blk (t : Fin cfg0.N) (i : S4096x8192.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v2).slice (win0_2.rect t)).set ↔ _
  rw [View.set_slice_whole, Rect.mem_set_unit]
  exact Iff.rfl

/-- Every index of the output array lies in some flushing point's block: the point of row block ⌊row / 256⌋
    and column block ⌊column / 2048⌋. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := idx_onto ⟨(i 0).val / 256, by omega⟩ ⟨(i 1).val / 2048, by omega⟩
  have hq0 : win0_2.index t (0 : Fin 2) = (i 0).val / 256 := congrFun ht 0
  have hq1 : win0_2.index t (1 : Fin 2) = (i 1).val / 2048 := congrFun ht 1
  refine ⟨t, Gen.flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- After the launch the output array is the product of the operand arrays found at entry. -/
theorem final (c : Dev nD) :
    (Gen.dat0 (F := Ideal) V c).arrAt 2 cfg0.N = gemm (M := 4096) (V c main_v0) (V c main_v1) :=
  (Gen.dat0 (F := Ideal) V c).arrAt_eq_of_cover 2 _ (fun t _ => flushed_eq V c t) cover

end Cert.KernelIdeal.Region0

end
-- ==== Proof.Region1.lean ====
/-
  Group 1 (1024 rows): the output array after the launch. The grid is 4 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region1

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 4 and 4. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) < 4
    ∧ win1_2.index t (1 : Fin 2) < 4 :=
  (by decide +kernel : ∀ t : Fin grid1.N, _)

/-- Every output block is some grid point's. -/
theorem idx_onto : ∀ (a : Fin 4) (b : Fin 4), ∃ t : Fin cfg1.N, win1_2.index t = ![a.val, b.val] :=
  (by decide +kernel : ∀ (a : Fin 4) (b : Fin 4), ∃ t : Fin grid1.N, win1_2.index t = ![a.val, b.val])

/-- What grid point t writes back is block t of the product of the operand arrays found at entry. -/
theorem flushed_eq (c : Dev nD) (t : Fin cfg1.N) :
    (Gen.dat1 (F := Ideal) V c).flushed 2 t
      = ((cfg1.win 2).blk t).view.read (Elt Ideal) (gemm (M := 1024) (V c main_v3) (V c main_v4)) := by
  show (cfg1.win 2).cut (grid1.coords t) ((Gen.dat1 (F := Ideal) V c).after 2 t) = _
  rw [Gen.after1_2]
  obtain ⟨hrow, hlz, hrz, hcol, -, -⟩ := idx_facts t
  funext j
  show Gen.out1_2 (F := Ideal) (Gen.iblk1 V c 0 t) (Gen.iblk1 V c 1 t) j
    = gemm (M := 1024) (V c main_v3) (V c main_v4) (((cfg1.win 2).blk t).view.emb j)
  refine Tile.block_prod (M := 1024) (V c main_v3) (V c main_v4) (Gen.iblk1 V c 0 t) (Gen.iblk1 V c 1 t)
    (Gen.out1_2 (F := Ideal) (Gen.iblk1 V c 0 t) (Gen.iblk1 V c 1 t)) (fun p q => Tile.out1_apply _ _ p q)
    (fun u => ((cfg1.win 0).blk t).view.emb u) (fun u => ((cfg1.win 1).blk t).view.emb u)
    (fun u => ((cfg1.win 2).blk t).view.emb u) (fun _ => rfl) (fun _ => rfl) ?_ ?_ j
  · intro u k
    funext a; apply Fin.ext
    match a with
    | ⟨0, _⟩ => show win1_0.index t (0 : Fin 2) * 256 + 1 * (u 0).val = win1_2.index t (0 : Fin 2) * 256 + 1 * (u 0).val; omega
    | ⟨1, _⟩ => show win1_0.index t (1 : Fin 2) * 2048 + 1 * k.val = k.val; omega
  · intro u k
    funext a; apply Fin.ext
    match a with
    | ⟨0, _⟩ => show win1_1.index t (0 : Fin 2) * 2048 + 1 * k.val = k.val; omega
    | ⟨1, _⟩ => show win1_1.index t (1 : Fin 2) * 2048 + 1 * (u 1).val = win1_2.index t (1 : Fin 2) * 2048 + 1 * (u 1).val; omega

/-- An index of the output array lies in point t's block iff each coordinate lies in the block's range. -/
theorem mem_blk (t : Fin cfg1.N) (i : S1024x8192.Idx) :
    i ∈ ((cfg1.win 2).blk t).view.set ↔ ∀ a : Fin 2, win1_2.index t a * S256x2048.size a ≤ (i a).val
      ∧ (i a).val < win1_2.index t a * S256x2048.size a + S256x2048.size a := by
  show i ∈ ((View.whole main_v5).slice (win1_2.rect t)).set ↔ _
  rw [View.set_slice_whole, Rect.mem_set_unit]
  exact Iff.rfl

/-- Every index of the output array lies in some flushing point's block: the point of row block ⌊row / 256⌋
    and column block ⌊column / 2048⌋. -/
theorem cover (i : S1024x8192.Idx) :
    ∃ t : Fin cfg1.N, (cfg1.win 2).flush t = true ∧ i ∈ ((cfg1.win 2).blk t).view.set := by
  have hi0 : (i 0).val < 1024 := (i 0).isLt
  have hi1 : (i 1).val < 8192 := (i 1).isLt
  obtain ⟨t, ht⟩ := idx_onto ⟨(i 0).val / 256, by omega⟩ ⟨(i 1).val / 2048, by omega⟩
  have hq0 : win1_2.index t (0 : Fin 2) = (i 0).val / 256 := congrFun ht 0
  have hq1 : win1_2.index t (1 : Fin 2) = (i 1).val / 2048 := congrFun ht 1
  refine ⟨t, Gen.flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega

/-- After the launch the output array is the product of the operand arrays found at entry. -/
theorem final (c : Dev nD) :
    (Gen.dat1 (F := Ideal) V c).arrAt 2 cfg1.N = gemm (M := 1024) (V c main_v3) (V c main_v4) :=
  (Gen.dat1 (F := Ideal) V c).arrAt_eq_of_cover 2 _ (fun t _ => flushed_eq V c t) cover

end Cert.KernelIdeal.Region1

end
-- ==== Proof.Region2.lean ====
/-
  Group 2 (2048 rows): the output array after the launch. The grid is 8 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region2

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 8 and 4. -/
theorem idx_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) < 8
    ∧ win2_2.index t (1 : Fin 2) < 4 :=
  (by decide +kernel : ∀ t : Fin grid2.N, _)

/-- Every output block is some grid point's. -/
theorem idx_onto : ∀ (a : Fin 8) (b : Fin 4), ∃ t : Fin cfg2.N, win2_2.index t = ![a.val, b.val] :=
  (by decide +kernel : ∀ (a : Fin 8) (b : Fin 4), ∃ t : Fin grid2.N, win2_2.index t = ![a.val, b.val])

/-- What grid point t writes back is block t of the product of the operand arrays found at entry. -/
theorem flushed_eq (c : Dev nD) (t : Fin cfg2.N) :
    (Gen.dat2 (F := Ideal) V c).flushed 2 t
      = ((cfg2.win 2).blk t).view.read (Elt Ideal) (gemm (M := 2048) (V c main_v6) (V c main_v7)) := by
  show (cfg2.win 2).cut (grid2.coords t) ((Gen.dat2 (F := Ideal) V c).after 2 t) = _
  rw [Gen.after2_2]
  obtain ⟨hrow, hlz, hrz, hcol, -, -⟩ := idx_facts t
  funext j
  show Gen.out2_2 (F := Ideal) (Gen.iblk2 V c 0 t) (Gen.iblk2 V c 1 t) j
    = gemm (M := 2048) (V c main_v6) (V c main_v7) (((cfg2.win 2).blk t).view.emb j)
  refine Tile.block_prod (M := 2048) (V c main_v6) (V c main_v7) (Gen.iblk2 V c 0 t) (Gen.iblk2 V c 1 t)
    (Gen.out2_2 (F := Ideal) (Gen.iblk2 V c 0 t) (Gen.iblk2 V c 1 t)) (fun p q => Tile.out2_apply _ _ p q)
    (fun u => ((cfg2.win 0).blk t).view.emb u) (fun u => ((cfg2.win 1).blk t).view.emb u)
    (fun u => ((cfg2.win 2).blk t).view.emb u) (fun _ => rfl) (fun _ => rfl) ?_ ?_ j
  · intro u k
    funext a; apply Fin.ext
    match a with
    | ⟨0, _⟩ => show win2_0.index t (0 : Fin 2) * 256 + 1 * (u 0).val = win2_2.index t (0 : Fin 2) * 256 + 1 * (u 0).val; omega
    | ⟨1, _⟩ => show win2_0.index t (1 : Fin 2) * 2048 + 1 * k.val = k.val; omega
  · intro u k
    funext a; apply Fin.ext
    match a with
    | ⟨0, _⟩ => show win2_1.index t (0 : Fin 2) * 2048 + 1 * k.val = k.val; omega
    | ⟨1, _⟩ => show win2_1.index t (1 : Fin 2) * 2048 + 1 * (u 1).val = win2_2.index t (1 : Fin 2) * 2048 + 1 * (u 1).val; omega

/-- An index of the output array lies in point t's block iff each coordinate lies in the block's range. -/
theorem mem_blk (t : Fin cfg2.N) (i : S2048x8192.Idx) :
    i ∈ ((cfg2.win 2).blk t).view.set ↔ ∀ a : Fin 2, win2_2.index t a * S256x2048.size a ≤ (i a).val
      ∧ (i a).val < win2_2.index t a * S256x2048.size a + S256x2048.size a := by
  show i ∈ ((View.whole main_v8).slice (win2_2.rect t)).set ↔ _
  rw [View.set_slice_whole, Rect.mem_set_unit]
  exact Iff.rfl

/-- Every index of the output array lies in some flushing point's block: the point of row block ⌊row / 256⌋
    and column block ⌊column / 2048⌋. -/
theorem cover (i : S2048x8192.Idx) :
    ∃ t : Fin cfg2.N, (cfg2.win 2).flush t = true ∧ i ∈ ((cfg2.win 2).blk t).view.set := by
  have hi0 : (i 0).val < 2048 := (i 0).isLt
  have hi1 : (i 1).val < 8192 := (i 1).isLt
  obtain ⟨t, ht⟩ := idx_onto ⟨(i 0).val / 256, by omega⟩ ⟨(i 1).val / 2048, by omega⟩
  have hq0 : win2_2.index t (0 : Fin 2) = (i 0).val / 256 := congrFun ht 0
  have hq1 : win2_2.index t (1 : Fin 2) = (i 1).val / 2048 := congrFun ht 1
  refine ⟨t, Gen.flush2_2 t, ?_⟩
  rw [mem_blk]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 2048 ≤ (i 1).val ∧ (i 1).val < win2_2.index t (1 : Fin 2) * 2048 + 2048; omega

/-- After the launch the output array is the product of the operand arrays found at entry. -/
theorem final (c : Dev nD) :
    (Gen.dat2 (F := Ideal) V c).arrAt 2 cfg2.N = gemm (M := 2048) (V c main_v6) (V c main_v7) :=
  (Gen.dat2 (F := Ideal) V c).arrAt_eq_of_cover 2 _ (fun t _ => flushed_eq V c t) cover

end Cert.KernelIdeal.Region2

end
-- ==== Proof.Region3.lean ====
/-
  Group 3 (3072 rows): the output array after the launch. The grid is 12 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region3

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 12 and 4. -/
theorem idx_facts : ∀ t : Fin cfg3.N,
    win3_0.index t (0 : Fin 2) = win3_2.index t (0 : Fin 2)
    ∧ win3_0.index t (1 : Fin 2) = 0
    ∧ win3_1.index t (0 : Fin 2) = 0
    ∧ win3_1.index t (1 : Fin 2) = win3_2.index t (1 : Fin 2)
    ∧ win3_2.index t (0 : Fin 2) < 12
    ∧ win3_2.index t (1 : Fin 2) < 4 :=
  (by decide +kernel : ∀ t : Fin grid3.N, _)

/-- Every output block is some grid point's. -/
theorem idx_onto : ∀ (a : Fin 12) (b : Fin 4), ∃ t : Fin cfg3.N, win3_2.index t = ![a.val, b.val] :=
  (by decide +kernel : ∀ (a : Fin 12) (b : Fin 4), ∃ t : Fin grid3.N, win3_2.index t = ![a.val, b.val])

/-- What grid point t writes back is block t of the product of the operand arrays found at entry. -/
theorem flushed_eq (c : Dev nD) (t : Fin cfg3.N) :
    (Gen.dat3 (F := Ideal) V c).flushed 2 t
      = ((cfg3.win 2).blk t).view.read (Elt Ideal) (gemm (M := 3072) (V c main_v9) (V c main_v10)) := by
  show (cfg3.win 2).cut (grid3.coords t) ((Gen.dat3 (F := Ideal) V c).after 2 t) = _
  rw [Gen.after3_2]
  obtain ⟨hrow, hlz, hrz, hcol, -, -⟩ := idx_facts t
  funext j
  show Gen.out3_2 (F := Ideal) (Gen.iblk3 V c 0 t) (Gen.iblk3 V c 1 t) j
    = gemm (M := 3072) (V c main_v9) (V c main_v10) (((cfg3.win 2).blk t).view.emb j)
  refine Tile.block_prod (M := 3072) (V c main_v9) (V c main_v10) (Gen.iblk3 V c 0 t) (Gen.iblk3 V c 1 t)
    (Gen.out3_2 (F := Ideal) (Gen.iblk3 V c 0 t) (Gen.iblk3 V c 1 t)) (fun p q => Tile.out3_apply _ _ p q)
    (fun u => ((cfg3.win 0).blk t).view.emb u) (fun u => ((cfg3.win 1).blk t).view.emb u)
    (fun u => ((cfg3.win 2).blk t).view.emb u) (fun _ => rfl) (fun _ => rfl) ?_ ?_ j
  · intro u k
    funext a; apply Fin.ext
    match a with
    | ⟨0, _⟩ => show win3_0.index t (0 : Fin 2) * 256 + 1 * (u 0).val = win3_2.index t (0 : Fin 2) * 256 + 1 * (u 0).val; omega
    | ⟨1, _⟩ => show win3_0.index t (1 : Fin 2) * 2048 + 1 * k.val = k.val; omega
  · intro u k
    funext a; apply Fin.ext
    match a with
    | ⟨0, _⟩ => show win3_1.index t (0 : Fin 2) * 2048 + 1 * k.val = k.val; omega
    | ⟨1, _⟩ => show win3_1.index t (1 : Fin 2) * 2048 + 1 * (u 1).val = win3_2.index t (1 : Fin 2) * 2048 + 1 * (u 1).val; omega

/-- An index of the output array lies in point t's block iff each coordinate lies in the block's range. -/
theorem mem_blk (t : Fin cfg3.N) (i : S3072x8192.Idx) :
    i ∈ ((cfg3.win 2).blk t).view.set ↔ ∀ a : Fin 2, win3_2.index t a * S256x2048.size a ≤ (i a).val
      ∧ (i a).val < win3_2.index t a * S256x2048.size a + S256x2048.size a := by
  show i ∈ ((View.whole main_v11).slice (win3_2.rect t)).set ↔ _
  rw [View.set_slice_whole, Rect.mem_set_unit]
  exact Iff.rfl

/-- Every index of the output array lies in some flushing point's block: the point of row block ⌊row / 256⌋
    and column block ⌊column / 2048⌋. -/
theorem cover (i : S3072x8192.Idx) :
    ∃ t : Fin cfg3.N, (cfg3.win 2).flush t = true ∧ i ∈ ((cfg3.win 2).blk t).view.set := by
  have hi0 : (i 0).val < 3072 := (i 0).isLt
  have hi1 : (i 1).val < 8192 := (i 1).isLt
  obtain ⟨t, ht⟩ := idx_onto ⟨(i 0).val / 256, by omega⟩ ⟨(i 1).val / 2048, by omega⟩
  have hq0 : win3_2.index t (0 : Fin 2) = (i 0).val / 256 := congrFun ht 0
  have hq1 : win3_2.index t (1 : Fin 2) = (i 1).val / 2048 := congrFun ht 1
  refine ⟨t, Gen.flush3_2 t, ?_⟩
  rw [mem_blk]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 2048 ≤ (i 1).val ∧ (i 1).val < win3_2.index t (1 : Fin 2) * 2048 + 2048; omega

/-- After the launch the output array is the product of the operand arrays found at entry. -/
theorem final (c : Dev nD) :
    (Gen.dat3 (F := Ideal) V c).arrAt 2 cfg3.N = gemm (M := 3072) (V c main_v9) (V c main_v10) :=
  (Gen.dat3 (F := Ideal) V c).arrAt_eq_of_cover 2 _ (fun t _ => flushed_eq V c t) cover

end Cert.KernelIdeal.Region3

end
-- ==== Proof.Region4.lean ====
/-
  Group 4 (512 rows): the output array after the launch. The grid is 2 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region4

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 2 and 4. -/
theorem idx_facts : ∀ t : Fin cfg4.N,
    win4_0.index t (0 : Fin 2) = win4_2.index t (0 : Fin 2)
    ∧ win4_0.index t (1 : Fin 2) = 0
    ∧ win4_1.index t (0 : Fin 2) = 0
    ∧ win4_1.index t (1 : Fin 2) = win4_2.index t (1 : Fin 2)
    ∧ win4_2.index t (0 : Fin 2) < 2
    ∧ win4_2.index t (1 : Fin 2) < 4 :=
  (by decide +kernel : ∀ t : Fin grid4.N, _)

/-- Every output block is some grid point's. -/
theorem idx_onto : ∀ (a : Fin 2) (b : Fin 4), ∃ t : Fin cfg4.N, win4_2.index t = ![a.val, b.val] :=
  (by decide +kernel : ∀ (a : Fin 2) (b : Fin 4), ∃ t : Fin grid4.N, win4_2.index t = ![a.val, b.val])

/-- What grid point t writes back is block t of the product of the operand arrays found at entry. -/
theorem flushed_eq (c : Dev nD) (t : Fin cfg4.N) :
    (Gen.dat4 (F := Ideal) V c).flushed 2 t
      = ((cfg4.win 2).blk t).view.read (Elt Ideal) (gemm (M := 512) (V c main_v12) (V c main_v13)) := by
  show (cfg4.win 2).cut (grid4.coords t) ((Gen.dat4 (F := Ideal) V c).after 2 t) = _
  rw [Gen.after4_2]
  obtain ⟨hrow, hlz, hrz, hcol, -, -⟩ := idx_facts t
  funext j
  show Gen.out4_2 (F := Ideal) (Gen.iblk4 V c 0 t) (Gen.iblk4 V c 1 t) j
    = gemm (M := 512) (V c main_v12) (V c main_v13) (((cfg4.win 2).blk t).view.emb j)
  refine Tile.block_prod (M := 512) (V c main_v12) (V c main_v13) (Gen.iblk4 V c 0 t) (Gen.iblk4 V c 1 t)
    (Gen.out4_2 (F := Ideal) (Gen.iblk4 V c 0 t) (Gen.iblk4 V c 1 t)) (fun p q => Tile.out4_apply _ _ p q)
    (fun u => ((cfg4.win 0).blk t).view.emb u) (fun u => ((cfg4.win 1).blk t).view.emb u)
    (fun u => ((cfg4.win 2).blk t).view.emb u) (fun _ => rfl) (fun _ => rfl) ?_ ?_ j
  · intro u k
    funext a; apply Fin.ext
    match a with
    | ⟨0, _⟩ => show win4_0.index t (0 : Fin 2) * 256 + 1 * (u 0).val = win4_2.index t (0 : Fin 2) * 256 + 1 * (u 0).val; omega
    | ⟨1, _⟩ => show win4_0.index t (1 : Fin 2) * 2048 + 1 * k.val = k.val; omega
  · intro u k
    funext a; apply Fin.ext
    match a with
    | ⟨0, _⟩ => show win4_1.index t (0 : Fin 2) * 2048 + 1 * k.val = k.val; omega
    | ⟨1, _⟩ => show win4_1.index t (1 : Fin 2) * 2048 + 1 * (u 1).val = win4_2.index t (1 : Fin 2) * 2048 + 1 * (u 1).val; omega

/-- An index of the output array lies in point t's block iff each coordinate lies in the block's range. -/
theorem mem_blk (t : Fin cfg4.N) (i : S512x8192.Idx) :
    i ∈ ((cfg4.win 2).blk t).view.set ↔ ∀ a : Fin 2, win4_2.index t a * S256x2048.size a ≤ (i a).val
      ∧ (i a).val < win4_2.index t a * S256x2048.size a + S256x2048.size a := by
  show i ∈ ((View.whole main_v14).slice (win4_2.rect t)).set ↔ _
  rw [View.set_slice_whole, Rect.mem_set_unit]
  exact Iff.rfl

/-- Every index of the output array lies in some flushing point's block: the point of row block ⌊row / 256⌋
    and column block ⌊column / 2048⌋. -/
theorem cover (i : S512x8192.Idx) :
    ∃ t : Fin cfg4.N, (cfg4.win 2).flush t = true ∧ i ∈ ((cfg4.win 2).blk t).view.set := by
  have hi0 : (i 0).val < 512 := (i 0).isLt
  have hi1 : (i 1).val < 8192 := (i 1).isLt
  obtain ⟨t, ht⟩ := idx_onto ⟨(i 0).val / 256, by omega⟩ ⟨(i 1).val / 2048, by omega⟩
  have hq0 : win4_2.index t (0 : Fin 2) = (i 0).val / 256 := congrFun ht 0
  have hq1 : win4_2.index t (1 : Fin 2) = (i 1).val / 2048 := congrFun ht 1
  refine ⟨t, Gen.flush4_2 t, ?_⟩
  rw [mem_blk]
  intro a
  match a with
  | ⟨0, _⟩ => show win4_2.index t (0 : Fin 2) * 256 ≤ (i 0).val ∧ (i 0).val < win4_2.index t (0 : Fin 2) * 256 + 256; omega
  | ⟨1, _⟩ => show win4_2.index t (1 : Fin 2) * 2048 ≤ (i 1).val ∧ (i 1).val < win4_2.index t (1 : Fin 2) * 2048 + 2048; omega

/-- After the launch the output array is the product of the operand arrays found at entry. -/
theorem final (c : Dev nD) :
    (Gen.dat4 (F := Ideal) V c).arrAt 2 cfg4.N = gemm (M := 512) (V c main_v12) (V c main_v13) :=
  (Gen.dat4 (F := Ideal) V c).arrAt_eq_of_cover 2 _ (fun t _ => flushed_eq V c t) cover

end Cert.KernelIdeal.Region4

end
-- ==== Proof.Region5.lean ====
/-
  Group 5 (1536 rows): the output array after the launch. The grid is 6 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region5

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 6 and 4. -/
theorem idx_facts : ∀ t : Fin cfg5.N,
    win5_0.index t (0 : Fin 2) = win5_2.index t (0 : Fin 2)
    ∧ win5_0.index t (1 : Fin 2) = 0
    ∧ win5_1.index t (0 : Fin 2) = 0
    ∧ win5_1.index t (1 : Fin 2) = win5_2.index t (1 : Fin 2)
    ∧ win5_2.index t (0 : Fin 2) < 6
    ∧ win5_2.index t (1 : Fin 2) < 4 :=
  (by decide +kernel : ∀ t : Fin grid5.N, _)

/-- Every output block is some grid point's. -/
theorem idx_onto : ∀ (a : Fin 6) (b : Fin 4), ∃ t : Fin cfg5.N, win5_2.index t = ![a.val, b.val] :=
  (by decide +kernel : ∀ (a : Fin 6) (b : Fin 4), ∃ t : Fin grid5.N, win5_2.index t = ![a.val, b.val])

/-- What grid point t writes back is block t of the product of the operand arrays found at entry. -/
theorem flushed_eq (c : Dev nD) (t : Fin cfg5.N) :
    (Gen.dat5 (F := Ideal) V c).flushed 2 t
      = ((cfg5.win 2).blk t).view.read (Elt Ideal) (gemm (M := 1536) (V c main_v15) (V c main_v16)) := by
  show (cfg5.win 2).cut (grid5.coords t) ((Gen.dat5 (F := Ideal) V c).after 2 t) = _
  rw [Gen.after5_2]
  obtain ⟨hrow, hlz, hrz, hcol, -, -⟩ := idx_facts t
  funext j
  show Gen.out5_2 (F := Ideal) (Gen.iblk5 V c 0 t) (Gen.iblk5 V c 1 t) j
    = gemm (M := 1536) (V c main_v15) (V c main_v16) (((cfg5.win 2).blk t).view.emb j)
  refine Tile.block_prod (M := 1536) (V c main_v15) (V c main_v16) (Gen.iblk5 V c 0 t) (Gen.iblk5 V c 1 t)
    (Gen.out5_2 (F := Ideal) (Gen.iblk5 V c 0 t) (Gen.iblk5 V c 1 t)) (fun p q => Tile.out5_apply _ _ p q)
    (fun u => ((cfg5.win 0).blk t).view.emb u) (fun u => ((cfg5.win 1).blk t).view.emb u)
    (fun u => ((cfg5.win 2).blk t).view.emb u) (fun _ => rfl) (fun _ => rfl) ?_ ?_ j
  · intro u k
    funext a; apply Fin.ext
    match a with
    | ⟨0, _⟩ => show win5_0.index t (0 : Fin 2) * 256 + 1 * (u 0).val = win5_2.index t (0 : Fin 2) * 256 + 1 * (u 0).val; omega
    | ⟨1, _⟩ => show win5_0.index t (1 : Fin 2) * 2048 + 1 * k.val = k.val; omega
  · intro u k
    funext a; apply Fin.ext
    match a with
    | ⟨0, _⟩ => show win5_1.index t (0 : Fin 2) * 2048 + 1 * k.val = k.val; omega
    | ⟨1, _⟩ => show win5_1.index t (1 : Fin 2) * 2048 + 1 * (u 1).val = win5_2.index t (1 : Fin 2) * 2048 + 1 * (u 1).val; omega

/-- An index of the output array lies in point t's block iff each coordinate lies in the block's range. -/
theorem mem_blk (t : Fin cfg5.N) (i : S1536x8192.Idx) :
    i ∈ ((cfg5.win 2).blk t).view.set ↔ ∀ a : Fin 2, win5_2.index t a * S256x2048.size a ≤ (i a).val
      ∧ (i a).val < win5_2.index t a * S256x2048.size a + S256x2048.size a := by
  show i ∈ ((View.whole main_v17).slice (win5_2.rect t)).set ↔ _
  rw [View.set_slice_whole, Rect.mem_set_unit]
  exact Iff.rfl

/-- Every index of the output array lies in some flushing point's block: the point of row block ⌊row / 256⌋
    and column block ⌊column / 2048⌋. -/
theorem cover (i : S1536x8192.Idx) :
    ∃ t : Fin cfg5.N, (cfg5.win 2).flush t = true ∧ i ∈ ((cfg5.win 2).blk t).view.set := by
  have hi0 : (i 0).val < 1536 := (i 0).isLt
  have hi1 : (i 1).val < 8192 := (i 1).isLt
  obtain ⟨t, ht⟩ := idx_onto ⟨(i 0).val / 256, by omega⟩ ⟨(i 1).val / 2048, by omega⟩
  have hq0 : win5_2.index t (0 : Fin 2) = (i 0).val / 256 := congrFun ht 0
  have hq1 : win5_2.index t (1 : Fin 2) = (i 1).val / 2048 := congrFun ht 1
  refine ⟨t, Gen.flush5_2 t, ?_⟩
  rw [mem_blk]
  intro a
  match a with
  | ⟨0, _⟩ => show win5_2.index t (0 : Fin 2) * 256 ≤ (i 0).val ∧ (i 0).val < win5_2.index t (0 : Fin 2) * 256 + 256; omega
  | ⟨1, _⟩ => show win5_2.index t (1 : Fin 2) * 2048 ≤ (i 1).val ∧ (i 1).val < win5_2.index t (1 : Fin 2) * 2048 + 2048; omega

/-- After the launch the output array is the product of the operand arrays found at entry. -/
theorem final (c : Dev nD) :
    (Gen.dat5 (F := Ideal) V c).arrAt 2 cfg5.N = gemm (M := 1536) (V c main_v15) (V c main_v16) :=
  (Gen.dat5 (F := Ideal) V c).arrAt_eq_of_cover 2 _ (fun t _ => flushed_eq V c t) cover

end Cert.KernelIdeal.Region5

end
-- ==== Proof.Region6.lean ====
/-
  Group 6 (2560 rows): the output array after the launch. The grid is 10 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region6

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 10 and 4. -/
theorem idx_facts : ∀ t : Fin cfg6.N,
    win6_0.index t (0 : Fin 2) = win6_2.index t (0 : Fin 2)
    ∧ win6_0.index t (1 : Fin 2) = 0
    ∧ win6_1.index t (0 : Fin 2) = 0
    ∧ win6_1.index t (1 : Fin 2) = win6_2.index t (1 : Fin 2)
    ∧ win6_2.index t (0 : Fin 2) < 10
    ∧ win6_2.index t (1 : Fin 2) < 4 :=
  (by decide +kernel : ∀ t : Fin grid6.N, _)

/-- Every output block is some grid point's. -/
theorem idx_onto : ∀ (a : Fin 10) (b : Fin 4), ∃ t : Fin cfg6.N, win6_2.index t = ![a.val, b.val] :=
  (by decide +kernel : ∀ (a : Fin 10) (b : Fin 4), ∃ t : Fin grid6.N, win6_2.index t = ![a.val, b.val])

/-- What grid point t writes back is block t of the product of the operand arrays found at entry. -/
theorem flushed_eq (c : Dev nD) (t : Fin cfg6.N) :
    (Gen.dat6 (F := Ideal) V c).flushed 2 t
      = ((cfg6.win 2).blk t).view.read (Elt Ideal) (gemm (M := 2560) (V c main_v18) (V c main_v19)) := by
  show (cfg6.win 2).cut (grid6.coords t) ((Gen.dat6 (F := Ideal) V c).after 2 t) = _
  rw [Gen.after6_2]
  obtain ⟨hrow, hlz, hrz, hcol, -, -⟩ := idx_facts t
  funext j
  show Gen.out6_2 (F := Ideal) (Gen.iblk6 V c 0 t) (Gen.iblk6 V c 1 t) j
    = gemm (M := 2560) (V c main_v18) (V c main_v19) (((cfg6.win 2).blk t).view.emb j)
  refine Tile.block_prod (M := 2560) (V c main_v18) (V c main_v19) (Gen.iblk6 V c 0 t) (Gen.iblk6 V c 1 t)
    (Gen.out6_2 (F := Ideal) (Gen.iblk6 V c 0 t) (Gen.iblk6 V c 1 t)) (fun p q => Tile.out6_apply _ _ p q)
    (fun u => ((cfg6.win 0).blk t).view.emb u) (fun u => ((cfg6.win 1).blk t).view.emb u)
    (fun u => ((cfg6.win 2).blk t).view.emb u) (fun _ => rfl) (fun _ => rfl) ?_ ?_ j
  · intro u k
    funext a; apply Fin.ext
    match a with
    | ⟨0, _⟩ => show win6_0.index t (0 : Fin 2) * 256 + 1 * (u 0).val = win6_2.index t (0 : Fin 2) * 256 + 1 * (u 0).val; omega
    | ⟨1, _⟩ => show win6_0.index t (1 : Fin 2) * 2048 + 1 * k.val = k.val; omega
  · intro u k
    funext a; apply Fin.ext
    match a with
    | ⟨0, _⟩ => show win6_1.index t (0 : Fin 2) * 2048 + 1 * k.val = k.val; omega
    | ⟨1, _⟩ => show win6_1.index t (1 : Fin 2) * 2048 + 1 * (u 1).val = win6_2.index t (1 : Fin 2) * 2048 + 1 * (u 1).val; omega

/-- An index of the output array lies in point t's block iff each coordinate lies in the block's range. -/
theorem mem_blk (t : Fin cfg6.N) (i : S2560x8192.Idx) :
    i ∈ ((cfg6.win 2).blk t).view.set ↔ ∀ a : Fin 2, win6_2.index t a * S256x2048.size a ≤ (i a).val
      ∧ (i a).val < win6_2.index t a * S256x2048.size a + S256x2048.size a := by
  show i ∈ ((View.whole main_v20).slice (win6_2.rect t)).set ↔ _
  rw [View.set_slice_whole, Rect.mem_set_unit]
  exact Iff.rfl

/-- Every index of the output array lies in some flushing point's block: the point of row block ⌊row / 256⌋
    and column block ⌊column / 2048⌋. -/
theorem cover (i : S2560x8192.Idx) :
    ∃ t : Fin cfg6.N, (cfg6.win 2).flush t = true ∧ i ∈ ((cfg6.win 2).blk t).view.set := by
  have hi0 : (i 0).val < 2560 := (i 0).isLt
  have hi1 : (i 1).val < 8192 := (i 1).isLt
  obtain ⟨t, ht⟩ := idx_onto ⟨(i 0).val / 256, by omega⟩ ⟨(i 1).val / 2048, by omega⟩
  have hq0 : win6_2.index t (0 : Fin 2) = (i 0).val / 256 := congrFun ht 0
  have hq1 : win6_2.index t (1 : Fin 2) = (i 1).val / 2048 := congrFun ht 1
  refine ⟨t, Gen.flush6_2 t, ?_⟩
  rw [mem_blk]
  intro a
  match a with
  | ⟨0, _⟩ => show win6_2.index t (0 : Fin 2) * 256 ≤ (i 0).val ∧ (i 0).val < win6_2.index t (0 : Fin 2) * 256 + 256; omega
  | ⟨1, _⟩ => show win6_2.index t (1 : Fin 2) * 2048 ≤ (i 1).val ∧ (i 1).val < win6_2.index t (1 : Fin 2) * 2048 + 2048; omega

/-- After the launch the output array is the product of the operand arrays found at entry. -/
theorem final (c : Dev nD) :
    (Gen.dat6 (F := Ideal) V c).arrAt 2 cfg6.N = gemm (M := 2560) (V c main_v18) (V c main_v19) :=
  (Gen.dat6 (F := Ideal) V c).arrAt_eq_of_cover 2 _ (fun t _ => flushed_eq V c t) cover

end Cert.KernelIdeal.Region6

end
-- ==== Proof.Region7.lean ====
/-
  Group 7 (768 rows): the output array after the launch. The grid is 3 × 4; point (i, j) reads rows
  256 i … 256 i + 255 of the left operand (all 2048 columns) and columns 2048 j … 2048 j + 2047 of the
  right operand (all 2048 rows), and writes block (i, j) of the output. What it writes is the restriction
  of the whole product to that block, the blocks cover the output, so the array ends as the product of
  the two operand arrays as the launch finds them.
-/
import proofs.«133505_j38792144618090_1_alg».proof.Proof.Tile

set_option maxRecDepth 16384

noncomputable section

open scoped BigOperators

namespace Cert.KernelIdeal.Region7

open Idealize.ShloMosaic Idealize.ShloMosaic.TcCoe Idealize.SL.Sem Idealize.ShloMosaic.ValueIdx
open Cert.KernelIdeal Cert.GroupGemm

variable (V : (c : Dev nD) → (b : Ref sig .tc) → Buf (Elt Ideal) ((c : Thread nD τ).loc b))

/-- The block placements over the grid: the left operand's block shares the output block's row index and
    sits at column block zero; the right operand's block sits at row block zero and shares the output block's
    column index; the output's block indices stay below 3 and 4. -/
theorem idx_facts : ∀ t : Fin cfg7.N,
    win7_0.index t (0 : Fin 2) = win7_2.index t (0 : Fin 2)
    ∧ win7_0.index t (1 : Fin 2) = 0
    ∧ win7_1.index t (0 : Fin 2) = 0
    ∧ win7_1.index t (1 : Fin 2) = win7_2.index t (1 : Fin 2)
    ∧ win7_2.index t (0 : Fin 2) < 3
    ∧ win7_2.index t (1 : Fin 2) < 4 :=
  (by decide +kernel : ∀ t : Fin grid7.N, _)

/-- Every output block is some grid point's. -/
theorem idx_onto : ∀ (a : Fin 3) (b : Fin 4), ∃ t : Fin cfg7.N, win7_2.index t = ![a.val, b.val] :=
  (by decide +kernel : ∀ (a : Fin 3) (b : Fin 4), ∃ t : Fin grid7.N, win7_2.index t = ![a.val, b.val])

/-- What grid point t writes back is block t of the product of the operand arrays found at entry. -/
theorem flushed_eq (c : Dev nD) (t : Fin cfg7.N) :
    (Gen.dat7 (F := Ideal) V c).flushed 2 t
      = ((cfg7.win 2).blk t).view.read (Elt Ideal) (gemm (M := 768) (V c main_v21) (V c main_v22)) := by
  show (cfg7.win 2).cut (grid7.coords t) ((Gen.dat7 (F := Ideal) V c).after 2 t) = _
  rw [Gen.after7_2]
  obtain ⟨hrow, hlz, hrz, hcol, -, -⟩ := idx_facts t
  funext j
  show Gen.out7_2 (F := Ideal) (Gen.iblk7 V c 0 t) (Gen.iblk7 V c 1 t) j
    = gemm (M := 768) (V c main_v21) (V c main_v22) (((cfg7.win 2).blk t).view.emb j)
  refine Tile.block_prod (M := 768) (V c main_v21) (V c main_v22) (Gen.iblk7 V c 0 t) (Gen.iblk7 V c 1 t)
    (Gen.out7_2 (F := Ideal) (Gen.iblk7 V c 0 t) (Gen.iblk7 V c 1 t)) (fun p q => Tile.out7_apply _ _ p q)
    (fun u => ((cfg7.win 0).blk t).view.emb u) (fun u => ((cfg7.win 1).blk t).view.emb u)
    (fun u => ((cfg7.win 2).blk t).view.emb u) (fun _ => rfl) (fun _ => rfl) ?_ ?_ j
  · intro u k
    funext a; apply Fin.ext
    match a with
    | ⟨0, _⟩ => show win7_0.index t (0 : Fin 2) * 256 + 1 * (u 0).val = win7_2.index t (0 : Fin 2) * 256 + 1 * (u 0).val; omega
    | ⟨1, _⟩ => show win7_0.index t (1 : Fin 2) * 2048 + 1 * k.val = k.val; omega
  · intro u k
    funext a; apply Fin.ext
    match a with
    | ⟨0, _⟩ => show win7_1.index t (0 : Fin 2) * 2048 + 1 * k.val = k.val; omega
    | ⟨1, _⟩ => show win7_1.index t (1 : Fin 2) * 2048 + 1 * (u 1).val = win7_2.index t (1 : Fin 2) * 2048 + 1 * (u 1).val; omega

/-- An index of the output array lies in point t's block iff each coordinate lies in the block's range. -/
theorem mem_blk (t : Fin cfg7.N) (i : S768x8192.Idx) :
    i ∈ ((cfg7.win 2).blk t).view.set ↔ ∀ a : Fin 2, win7_2.index t a * S256x2048.size a ≤ (i a).val
      ∧ (i a).val < win7_2.index t a * S256x2048.size a + S256x2048.size a := by
  show i ∈ ((View.whole main_v23).slice (win7_2.rect t)).set ↔ _
  rw [View.set_slice_whole, Rect.mem_set_unit]
  exact Iff.rfl

/-- Every index of the output array lies in some flushing point's block: the point of row block ⌊row / 256⌋
    and column block ⌊column / 2048⌋. -/
theorem cover (i : S768x8192.Idx) :
    ∃ t : Fin cfg7.N, (cfg7.win 2).flush t = true ∧ i ∈ ((cfg7.win 2).blk t).view.set := by
  have hi0 : (i 0).val < 768 := (i 0).isLt
  have hi1 : (i 1).val < 8192 := (i 1).isLt
  obtain ⟨t, ht⟩ := idx_onto ⟨(i 0).val / 256, by omega⟩ ⟨(i 1).val / 2048, by omega⟩
  have hq0 : win7_2.index t (0 : Fin 2) = (i 0).val / 256 := congrFun ht 0
  have hq1 : win7_2.index t (1 : Fin 2) = (i 1).val / 2048 := congrFun ht 1
  refine ⟨t, Gen.flush7_2 t, ?_⟩
  rw [mem_blk]
  intro a
  match a with
  | ⟨0, _⟩ => show win7_2.index t (0 : Fin 2) * 256 ≤ (i 0).val ∧ (i 0).val < win7_2.index t (0 : Fin 2) * 256 + 256; omega
  | ⟨1, _⟩ => show win7_2.index t (1 : Fin 2) * 2048 ≤ (i 1).val ∧ (i 1).val < win7_2.index t (1 : Fin 2) * 2048 + 2048; omega

/-- After the launch the output array is the product of the operand arrays found at entry. -/
theorem final (c : Dev nD) :
    (Gen.dat7 (F := Ideal) V c).arrAt 2 cfg7.N = gemm (M := 768) (V c main_v21) (V c main_v22) :=
  (Gen.dat7 (F := Ideal) V c).arrAt_eq_of_cover 2 _ (fun t _ => flushed_eq V c t) cover

end Cert.KernelIdeal.Region7

end
-- ==== Proof.Fold.lean ====
/-
  The run's boundaries, read back. @main alternates a stretch of host operations (the two format changes of
  a group's operands) with that group's launch. A launch changes only its own output array; a format change
  writes only its own result; on the extended reals a format change is the identity. So at the last boundary
  group r's output array holds what its launch left, namely the product of the two converted operands as the
  launch found them, and those are arguments r and 8 + r as launched.

  Group k owns three arrays: the two converted operands v(3k), v(3k+1) and the output v(3k+2). Between the
  boundary before group k and the boundary after it nothing else changes (group0 … group7). Chaining these,
  an array that none of the first k groups owns still holds at group k's entry what it held at launch
  (first1 … first7), and an array that none of groups k … 7 owns holds at the last boundary what it held at
  group k's entry (last1 … last7). The arguments are owned by no group and output r is owned by group r only.
-/
import proofs.«133505_j38792144618090_1_alg».proof.Proof.Region0
import proofs.«133505_j38792144618090_1_alg».proof.Proof.Region1
import proofs.«133505_j38792144618090_1_alg».proof.Proof.Region2
import proofs.«133505_j38792144618090_1_alg».proof.Proof.Region3
import proofs.«133505_j38792144618090_1_alg».proof.Proof.Region4
import proofs.«133505_j38792144618090_1_alg».proof.Proof.Region5
import proofs.«133505_j38792144618090_1_alg».proof.Proof.Region6
import proofs.«133505_j38792144618090_1_alg».proof.Proof.Region7

set_option maxRecDepth 16384

noncomputable section

namespace Cert.KernelIdeal.Fold

open Idealize.ShloMosaic Idealize.ShloMosaic.TcCoe Idealize.SL.Sem Idealize.ShloMosaic.ValueIdx
open Cert.KernelIdeal Cert.GroupGemm

variable (m : (ℓ : Loc nD τ sig) → Buf (Elt Ideal) ℓ) (ρ : Dev nD → PrngReg)

/-! ## One group changes only its own three arrays

Each format change writes its result and nothing else, so an array that is neither result passes the stretch
unchanged; the launch rewrites its three arrays and leaves every other buffer as it entered. -/

/-- Group 0 (its two format changes, then its launch) changes only its own three arrays. -/
theorem group0 (c : Dev nD) (b : Ref sig .tc) (hb : b ∉ [main_v0, main_v1, main_v2]) :
    Gen.W2 (F := Ideal) m ρ c (Proc.devRef .tc b) = Gen.W0 (F := Ideal) m ρ c (Proc.devRef .tc b) := by
  simp only [List.mem_cons, List.not_mem_nil, or_false, not_or] at hb
  obtain ⟨h0, h1, h2⟩ := hb
  refine (Gen.W2_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 1 changes only its own three arrays. -/
theorem group1 (c : Dev nD) (b : Ref sig .tc) (hb : b ∉ [main_v3, main_v4, main_v5]) :
    Gen.W4 (F := Ideal) m ρ c (Proc.devRef .tc b) = Gen.W2 (F := Ideal) m ρ c (Proc.devRef .tc b) := by
  simp only [List.mem_cons, List.not_mem_nil, or_false, not_or] at hb
  obtain ⟨h0, h1, h2⟩ := hb
  refine (Gen.W4_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 2 changes only its own three arrays. -/
theorem group2 (c : Dev nD) (b : Ref sig .tc) (hb : b ∉ [main_v6, main_v7, main_v8]) :
    Gen.W6 (F := Ideal) m ρ c (Proc.devRef .tc b) = Gen.W4 (F := Ideal) m ρ c (Proc.devRef .tc b) := by
  simp only [List.mem_cons, List.not_mem_nil, or_false, not_or] at hb
  obtain ⟨h0, h1, h2⟩ := hb
  refine (Gen.W6_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 3 changes only its own three arrays. -/
theorem group3 (c : Dev nD) (b : Ref sig .tc) (hb : b ∉ [main_v9, main_v10, main_v11]) :
    Gen.W8 (F := Ideal) m ρ c (Proc.devRef .tc b) = Gen.W6 (F := Ideal) m ρ c (Proc.devRef .tc b) := by
  simp only [List.mem_cons, List.not_mem_nil, or_false, not_or] at hb
  obtain ⟨h0, h1, h2⟩ := hb
  refine (Gen.W8_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 4 changes only its own three arrays. -/
theorem group4 (c : Dev nD) (b : Ref sig .tc) (hb : b ∉ [main_v12, main_v13, main_v14]) :
    Gen.W10 (F := Ideal) m ρ c (Proc.devRef .tc b) = Gen.W8 (F := Ideal) m ρ c (Proc.devRef .tc b) := by
  simp only [List.mem_cons, List.not_mem_nil, or_false, not_or] at hb
  obtain ⟨h0, h1, h2⟩ := hb
  refine (Gen.W10_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 5 changes only its own three arrays. -/
theorem group5 (c : Dev nD) (b : Ref sig .tc) (hb : b ∉ [main_v15, main_v16, main_v17]) :
    Gen.W12 (F := Ideal) m ρ c (Proc.devRef .tc b) = Gen.W10 (F := Ideal) m ρ c (Proc.devRef .tc b) := by
  simp only [List.mem_cons, List.not_mem_nil, or_false, not_or] at hb
  obtain ⟨h0, h1, h2⟩ := hb
  refine (Gen.W12_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 6 changes only its own three arrays. -/
theorem group6 (c : Dev nD) (b : Ref sig .tc) (hb : b ∉ [main_v18, main_v19, main_v20]) :
    Gen.W14 (F := Ideal) m ρ c (Proc.devRef .tc b) = Gen.W12 (F := Ideal) m ρ c (Proc.devRef .tc b) := by
  simp only [List.mem_cons, List.not_mem_nil, or_false, not_or] at hb
  obtain ⟨h0, h1, h2⟩ := hb
  refine (Gen.W14_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-- Group 7 changes only its own three arrays. -/
theorem group7 (c : Dev nD) (b : Ref sig .tc) (hb : b ∉ [main_v21, main_v22, main_v23]) :
    Gen.W16 (F := Ideal) m ρ c (Proc.devRef .tc b) = Gen.W14 (F := Ideal) m ρ c (Proc.devRef .tc b) := by
  simp only [List.mem_cons, List.not_mem_nil, or_false, not_or] at hb
  obtain ⟨h0, h1, h2⟩ := hb
  refine (Gen.W16_of_ne (F := Ideal) m ρ c b ?_).trans
    ((StableHlo.unary_result_ne _ _ _ _ _ _ h1).trans (StableHlo.unary_result_ne _ _ _ _ _ _ h0))
  intro w
  fin_cases w
  exacts [Ne.symm h0, Ne.symm h1, Ne.symm h2]

/-! ## Through the first k groups

An array owned by none of groups 0 … k − 1 holds at group k's entry what it held at launch: the list of a
longer prefix is the shorter prefix's list followed by the next group's three arrays. -/

/-- Through group 0. -/
theorem first1 (c : Dev nD) (b : Ref sig .tc) (hb : b ∉ [main_v0, main_v1, main_v2]) :
    Gen.W2 (F := Ideal) m ρ c (Proc.devRef .tc b) = Gen.W0 (F := Ideal) m ρ c (Proc.devRef .tc b) :=
  group0 m ρ c b hb

/-- Through groups 0 and 1. -/
theorem first2 (c : Dev nD) (b : Ref sig .tc)
    (hb : b ∉ [main_v0, main_v1, main_v2, main_v3, main_v4, main_v5]) :
    Gen.W4 (F := Ideal) m ρ c (Proc.devRef .tc b) = Gen.W0 (F := Ideal) m ρ c (Proc.devRef .tc b) :=
  (group1 m ρ c b fun h => hb (List.mem_append_right [main_v0, main_v1, main_v2] h)).trans
    (first1 m ρ c b fun h => hb (List.mem_append_left [main_v3, main_v4, main_v5] h))

/-- Through groups 0 … 2. -/
theorem first3 (c : Dev nD) (b : Ref sig .tc)
    (hb : b ∉ [main_v0, main_v1, main_v2, main_v3, main_v4, main_v5, main_v6, main_v7, main_v8]) :
    Gen.W6 (F := Ideal) m ρ c (Proc.devRef .tc b) = Gen.W0 (F := Ideal) m ρ c (Proc.devRef .tc b) :=
  (group2 m ρ c b fun h => hb (List.mem_append_right [main_v0, main_v1, main_v2, main_v3, main_v4, main_v5] h)).trans
    (first2 m ρ c b fun h => hb (List.mem_append_left [main_v6, main_v7, main_v8] h))

/-- Through groups 0 … 3. -/
theorem first4 (c : Dev nD) (b : Ref sig .tc)
    (hb : b ∉ [main_v0, main_v1, main_v2, main_v3, main_v4, main_v5, main_v6, main_v7, main_v8,
      main_v9, main_v10, main_v11]) :
    Gen.W8 (F := Ideal) m ρ c (Proc.devRef .tc b) = Gen.W0 (F := Ideal) m ρ c (Proc.devRef .tc b) :=
  (group3 m ρ c b fun h => hb (List.mem_append_right
      [main_v0, main_v1, main_v2, main_v3, main_v4, main_v5, main_v6, main_v7, main_v8] h)).trans
    (first3 m ρ c b fun h => hb (List.mem_append_left [main_v9, main_v10, main_v11] h))

/-- Through groups 0 … 4. -/
theorem first5 (c : Dev nD) (b : Ref sig .tc)
    (hb : b ∉ [main_v0, main_v1, main_v2, main_v3, main_v4, main_v5, main_v6, main_v7, main_v8,
      main_v9, main_v10, main_v11, main_v12, main_v13, main_v14]) :
    Gen.W10 (F := Ideal) m ρ c (Proc.devRef .tc b) = Gen.W0 (F := Ideal) m ρ c (Proc.devRef .tc b) :=
  (group4 m ρ c b fun h => hb (List.mem_append_right
      [main_v0, main_v1, main_v2, main_v3, main_v4, main_v5, main_v6, main_v7, main_v8,
        main_v9, main_v10, main_v11] h)).trans
    (first4 m ρ c b fun h => hb (List.mem_append_left [main_v12, main_v13, main_v14] h))

/-- Through groups 0 … 5. -/
theorem first6 (c : Dev nD) (b : Ref sig .tc)
    (hb : b ∉ [main_v0, main_v1, main_v2, main_v3, main_v4, main_v5, main_v6, main_v7, main_v8,
      main_v9, main_v10, main_v11, main_v12, main_v13, main_v14, main_v15, main_v16, main_v17]) :
    Gen.W12 (F := Ideal) m ρ c (Proc.devRef .tc b) = Gen.W0 (F := Ideal) m ρ c (Proc.devRef .tc b) :=
  (group5 m ρ c b fun h => hb (List.mem_append_right
      [main_v0, main_v1, main_v2, main_v3, main_v4, main_v5, main_v6, main_v7, main_v8,
        main_v9, main_v10, main_v11, main_v12, main_v13, main_v14] h)).trans
    (first5 m ρ c b fun h => hb (List.mem_append_left [main_v15, main_v16, main_v17] h))

/-- Through groups 0 … 6. -/
theorem first7 (c : Dev nD) (b : Ref sig .tc)
    (hb : b ∉ [main_v0, main_v1, main_v2, main_v3, main_v4, main_v5, main_v6, main_v7, main_v8,
      main_v9, main_v10, main_v11, main_v12, main_v13, main_v14, main_v15, main_v16, main_v17,
      main_v18, main_v19, main_v20]) :
    Gen.W14 (F := Ideal) m ρ c (Proc.devRef .tc b) = Gen.W0 (F := Ideal) m ρ c (Proc.devRef .tc b) :=
  (group6 m ρ c b fun h => hb (List.mem_append_right
      [main_v0, main_v1, main_v2, main_v3, main_v4, main_v5, main_v6, main_v7, main_v8,
        main_v9, main_v10, main_v11, main_v12, main_v13, main_v14, main_v15, main_v16, main_v17] h)).trans
    (first6 m ρ c b fun h => hb (List.mem_append_left [main_v18, main_v19, main_v20] h))

/-! ## Through groups k … 7

An array owned by none of groups k … 7 holds at the last boundary what it held at group k's entry: the list
of a longer suffix is the next earlier group's three arrays followed by the shorter suffix's list. -/

/-- Through group 7. -/
theorem last7 (c : Dev nD) (b : Ref sig .tc) (hb : b ∉ [main_v21, main_v22, main_v23]) :
    Gen.W16 (F := Ideal) m ρ c (Proc.devRef .tc b) = Gen.W14 (F := Ideal) m ρ c (Proc.devRef .tc b) :=
  group7 m ρ c b hb

/-- Through groups 6 and 7. -/
theorem last6 (c : Dev nD) (b : Ref sig .tc)
    (hb : b ∉ [main_v18, main_v19, main_v20, main_v21, main_v22, main_v23]) :
    Gen.W16 (F := Ideal) m ρ c (Proc.devRef .tc b) = Gen.W12 (F := Ideal) m ρ c (Proc.devRef .tc b) :=
  (last7 m ρ c b fun h => hb (List.mem_append_right [main_v18, main_v19, main_v20] h)).trans
    (group6 m ρ c b fun h => hb (List.mem_append_left [main_v21, main_v22, main_v23] h))

/-- Through groups 5 … 7. -/
theorem last5 (c : Dev nD) (b : Ref sig .tc)
    (hb : b ∉ [main_v15, main_v16, main_v17, main_v18, main_v19, main_v20, main_v21, main_v22, main_v23]) :
    Gen.W16 (F := Ideal) m ρ c (Proc.devRef .tc b) = Gen.W10 (F := Ideal) m ρ c (Proc.devRef .tc b) :=
  (last6 m ρ c b fun h => hb (List.mem_append_right [main_v15, main_v16, main_v17] h)).trans
    (group5 m ρ c b fun h => hb (List.mem_append_left
      [main_v18, main_v19, main_v20, main_v21, main_v22, main_v23] h))

/-- Through groups 4 … 7. -/
theorem last4 (c : Dev nD) (b : Ref sig .tc)
    (hb : b ∉ [main_v12, main_v13, main_v14, main_v15, main_v16, main_v17, main_v18, main_v19, main_v20,
      main_v21, main_v22, main_v23]) :
    Gen.W16 (F := Ideal) m ρ c (Proc.devRef .tc b) = Gen.W8 (F := Ideal) m ρ c (Proc.devRef .tc b) :=
  (last5 m ρ c b fun h => hb (List.mem_append_right [main_v12, main_v13, main_v14] h)).trans
    (group4 m ρ c b fun h => hb (List.mem_append_left
      [main_v15, main_v16, main_v17, main_v18, main_v19, main_v20, main_v21, main_v22, main_v23] h))

/-- Through groups 3 … 7. -/
theorem last3 (c : Dev nD) (b : Ref sig .tc)
    (hb : b ∉ [main_v9, main_v10, main_v11, main_v12, main_v13, main_v14, main_v15, main_v16, main_v17,
      main_v18, main_v19, main_v20, main_v21, main_v22, main_v23]) :
    Gen.W16 (F := Ideal) m ρ c (Proc.devRef .tc b) = Gen.W6 (F := Ideal) m ρ c (Proc.devRef .tc b) :=
  (last4 m ρ c b fun h => hb (List.mem_append_right [main_v9, main_v10, main_v11] h)).trans
    (group3 m ρ c b fun h => hb (List.mem_append_left
      [main_v12, main_v13, main_v14, main_v15, main_v16, main_v17, main_v18, main_v19, main_v20,
        main_v21, main_v22, main_v23] h))

/-- Through groups 2 … 7. -/
theorem last2 (c : Dev nD) (b : Ref sig .tc)
    (hb : b ∉ [main_v6, main_v7, main_v8, main_v9, main_v10, main_v11, main_v12, main_v13, main_v14,
      main_v15, main_v16, main_v17, main_v18, main_v19, main_v20, main_v21, main_v22, main_v23]) :
    Gen.W16 (F := Ideal) m ρ c (Proc.devRef .tc b) = Gen.W4 (F := Ideal) m ρ c (Proc.devRef .tc b) :=
  (last3 m ρ c b fun h => hb (List.mem_append_right [main_v6, main_v7, main_v8] h)).trans
    (group2 m ρ c b fun h => hb (List.mem_append_left
      [main_v9, main_v10, main_v11, main_v12, main_v13, main_v14, main_v15, main_v16, main_v17,
        main_v18, main_v19, main_v20, main_v21, main_v22, main_v23] h))

/-- Through groups 1 … 7. -/
theorem last1 (c : Dev nD) (b : Ref sig .tc)
    (hb : b ∉ [main_v3, main_v4, main_v5, main_v6, main_v7, main_v8, main_v9, main_v10, main_v11,
      main_v12, main_v13, main_v14, main_v15, main_v16, main_v17, main_v18, main_v19, main_v20,
      main_v21, main_v22, main_v23]) :
    Gen.W16 (F := Ideal) m ρ c (Proc.devRef .tc b) = Gen.W2 (F := Ideal) m ρ c (Proc.devRef .tc b) :=
  (last2 m ρ c b fun h => hb (List.mem_append_right [main_v3, main_v4, main_v5] h)).trans
    (group1 m ρ c b fun h => hb (List.mem_append_left
      [main_v6, main_v7, main_v8, main_v9, main_v10, main_v11, main_v12, main_v13, main_v14,
        main_v15, main_v16, main_v17, main_v18, main_v19, main_v20, main_v21, main_v22, main_v23] h))

/-! ## The operands a launch finds

Group k's stretch writes v(3k) from argument k and v(3k+1) from argument 8 + k, each by a format change, which
on the extended reals returns its operand; the argument itself is owned by no group, so at group k's entry it
is as launched. -/

/-- Group 0's left operand as its launch finds it: argument 0 as launched. -/
theorem left0 (c : Dev nD) :
    Gen.V1 (F := Ideal) m ρ c main_v0 = m ((c.tc : Thread nD τ).loc main_arg0) := by
  show StableHlo.after Gen.hostOps0 _ (Proc.devRef .tc main_v0) = _
  after_results
  rfl

/-- Group 0's right operand as its launch finds it: argument 8 as launched. -/
theorem right0 (c : Dev nD) :
    Gen.V1 (F := Ideal) m ρ c main_v1 = m ((c.tc : Thread nD τ).loc main_arg8) := by
  show StableHlo.after Gen.hostOps0 _ (Proc.devRef .tc main_v1) = _
  after_results
  rfl

/-- Group 1's left operand as its launch finds it: argument 1 as launched. -/
theorem left1 (c : Dev nD) :
    Gen.V3 (F := Ideal) m ρ c main_v3 = m ((c.tc : Thread nD τ).loc main_arg1) := by
  refine Eq.trans ?_ (first1 m ρ c main_arg1 (by decide))
  show StableHlo.after Gen.hostOps1 _ (Proc.devRef .tc main_v3) = _
  after_results
  rfl

/-- Group 1's right operand as its launch finds it: argument 9 as launched. -/
theorem right1 (c : Dev nD) :
    Gen.V3 (F := Ideal) m ρ c main_v4 = m ((c.tc : Thread nD τ).loc main_arg9) := by
  refine Eq.trans ?_ (first1 m ρ c main_arg9 (by decide))
  show StableHlo.after Gen.hostOps1 _ (Proc.devRef .tc main_v4) = _
  after_results
  rfl

/-- Group 2's left operand as its launch finds it: argument 2 as launched. -/
theorem left2 (c : Dev nD) :
    Gen.V5 (F := Ideal) m ρ c main_v6 = m ((c.tc : Thread nD τ).loc main_arg2) := by
  refine Eq.trans ?_ (first2 m ρ c main_arg2 (by decide))
  show StableHlo.after Gen.hostOps2 _ (Proc.devRef .tc main_v6) = _
  after_results
  rfl

/-- Group 2's right operand as its launch finds it: argument 10 as launched. -/
theorem right2 (c : Dev nD) :
    Gen.V5 (F := Ideal) m ρ c main_v7 = m ((c.tc : Thread nD τ).loc main_arg10) := by
  refine Eq.trans ?_ (first2 m ρ c main_arg10 (by decide))
  show StableHlo.after Gen.hostOps2 _ (Proc.devRef .tc main_v7) = _
  after_results
  rfl

/-- Group 3's left operand as its launch finds it: argument 3 as launched. -/
theorem left3 (c : Dev nD) :
    Gen.V7 (F := Ideal) m ρ c main_v9 = m ((c.tc : Thread nD τ).loc main_arg3) := by
  refine Eq.trans ?_ (first3 m ρ c main_arg3 (by decide))
  show StableHlo.after Gen.hostOps3 _ (Proc.devRef .tc main_v9) = _
  after_results
  rfl

/-- Group 3's right operand as its launch finds it: argument 11 as launched. -/
theorem right3 (c : Dev nD) :
    Gen.V7 (F := Ideal) m ρ c main_v10 = m ((c.tc : Thread nD τ).loc main_arg11) := by
  refine Eq.trans ?_ (first3 m ρ c main_arg11 (by decide))
  show StableHlo.after Gen.hostOps3 _ (Proc.devRef .tc main_v10) = _
  after_results
  rfl

/-- Group 4's left operand as its launch finds it: argument 4 as launched. -/
theorem left4 (c : Dev nD) :
    Gen.V9 (F := Ideal) m ρ c main_v12 = m ((c.tc : Thread nD τ).loc main_arg4) := by
  refine Eq.trans ?_ (first4 m ρ c main_arg4 (by decide))
  show StableHlo.after Gen.hostOps4 _ (Proc.devRef .tc main_v12) = _
  after_results
  rfl

/-- Group 4's right operand as its launch finds it: argument 12 as launched. -/
theorem right4 (c : Dev nD) :
    Gen.V9 (F := Ideal) m ρ c main_v13 = m ((c.tc : Thread nD τ).loc main_arg12) := by
  refine Eq.trans ?_ (first4 m ρ c main_arg12 (by decide))
  show StableHlo.after Gen.hostOps4 _ (Proc.devRef .tc main_v13) = _
  after_results
  rfl

/-- Group 5's left operand as its launch finds it: argument 5 as launched. -/
theorem left5 (c : Dev nD) :
    Gen.V11 (F := Ideal) m ρ c main_v15 = m ((c.tc : Thread nD τ).loc main_arg5) := by
  refine Eq.trans ?_ (first5 m ρ c main_arg5 (by decide))
  show StableHlo.after Gen.hostOps5 _ (Proc.devRef .tc main_v15) = _
  after_results
  rfl

/-- Group 5's right operand as its launch finds it: argument 13 as launched. -/
theorem right5 (c : Dev nD) :
    Gen.V11 (F := Ideal) m ρ c main_v16 = m ((c.tc : Thread nD τ).loc main_arg13) := by
  refine Eq.trans ?_ (first5 m ρ c main_arg13 (by decide))
  show StableHlo.after Gen.hostOps5 _ (Proc.devRef .tc main_v16) = _
  after_results
  rfl

/-- Group 6's left operand as its launch finds it: argument 6 as launched. -/
theorem left6 (c : Dev nD) :
    Gen.V13 (F := Ideal) m ρ c main_v18 = m ((c.tc : Thread nD τ).loc main_arg6) := by
  refine Eq.trans ?_ (first6 m ρ c main_arg6 (by decide))
  show StableHlo.after Gen.hostOps6 _ (Proc.devRef .tc main_v18) = _
  after_results
  rfl

/-- Group 6's right operand as its launch finds it: argument 14 as launched. -/
theorem right6 (c : Dev nD) :
    Gen.V13 (F := Ideal) m ρ c main_v19 = m ((c.tc : Thread nD τ).loc main_arg14) := by
  refine Eq.trans ?_ (first6 m ρ c main_arg14 (by decide))
  show StableHlo.after Gen.hostOps6 _ (Proc.devRef .tc main_v19) = _
  after_results
  rfl

/-- Group 7's left operand as its launch finds it: argument 7 as launched. -/
theorem left7 (c : Dev nD) :
    Gen.V15 (F := Ideal) m ρ c main_v21 = m ((c.tc : Thread nD τ).loc main_arg7) := by
  refine Eq.trans ?_ (first7 m ρ c main_arg7 (by decide))
  show StableHlo.after Gen.hostOps7 _ (Proc.devRef .tc main_v21) = _
  after_results
  rfl

/-- Group 7's right operand as its launch finds it: argument 15 as launched. -/
theorem right7 (c : Dev nD) :
    Gen.V15 (F := Ideal) m ρ c main_v22 = m ((c.tc : Thread nD τ).loc main_arg15) := by
  refine Eq.trans ?_ (first7 m ρ c main_arg15 (by decide))
  show StableHlo.after Gen.hostOps7 _ (Proc.devRef .tc main_v22) = _
  after_results
  rfl

/-! ## The eight results

Output r is owned by group r alone, so the last boundary holds what group r's launch left in it; that is the
product of the operands the launch found, and those are arguments r and 8 + r as launched. -/

/-- Result 0: the last boundary holds, for group 0's output array, the product of arguments 0 and 8 as launched. -/
theorem result0 (c : Dev nD) :
    Gen.W16 (F := Ideal) m ρ c (Proc.devRef .tc main_v2)
      = gemm (M := 4096) (m ((c.tc : Thread nD τ).loc main_arg0)) (m ((c.tc : Thread nD τ).loc main_arg8)) :=
  (last1 m ρ c main_v2 (by decide)).trans ((Gen.W2_arr (F := Ideal) m ρ c 2).trans
    ((Region0.final (Gen.V1 (F := Ideal) m ρ) c).trans
      (congrArg₂ (gemm (M := 4096)) (left0 m ρ c) (right0 m ρ c))))

/-- Result 1: the last boundary holds, for group 1's output array, the product of arguments 1 and 9 as launched. -/
theorem result1 (c : Dev nD) :
    Gen.W16 (F := Ideal) m ρ c (Proc.devRef .tc main_v5)
      = gemm (M := 1024) (m ((c.tc : Thread nD τ).loc main_arg1)) (m ((c.tc : Thread nD τ).loc main_arg9)) :=
  (last2 m ρ c main_v5 (by decide)).trans ((Gen.W4_arr (F := Ideal) m ρ c 2).trans
    ((Region1.final (Gen.V3 (F := Ideal) m ρ) c).trans
      (congrArg₂ (gemm (M := 1024)) (left1 m ρ c) (right1 m ρ c))))

/-- Result 2: the last boundary holds, for group 2's output array, the product of arguments 2 and 10 as launched. -/
theorem result2 (c : Dev nD) :
    Gen.W16 (F := Ideal) m ρ c (Proc.devRef .tc main_v8)
      = gemm (M := 2048) (m ((c.tc : Thread nD τ).loc main_arg2)) (m ((c.tc : Thread nD τ).loc main_arg10)) :=
  (last3 m ρ c main_v8 (by decide)).trans ((Gen.W6_arr (F := Ideal) m ρ c 2).trans
    ((Region2.final (Gen.V5 (F := Ideal) m ρ) c).trans
      (congrArg₂ (gemm (M := 2048)) (left2 m ρ c) (right2 m ρ c))))

/-- Result 3: the last boundary holds, for group 3's output array, the product of arguments 3 and 11 as launched. -/
theorem result3 (c : Dev nD) :
    Gen.W16 (F := Ideal) m ρ c (Proc.devRef .tc main_v11)
      = gemm (M := 3072) (m ((c.tc : Thread nD τ).loc main_arg3)) (m ((c.tc : Thread nD τ).loc main_arg11)) :=
  (last4 m ρ c main_v11 (by decide)).trans ((Gen.W8_arr (F := Ideal) m ρ c 2).trans
    ((Region3.final (Gen.V7 (F := Ideal) m ρ) c).trans
      (congrArg₂ (gemm (M := 3072)) (left3 m ρ c) (right3 m ρ c))))

/-- Result 4: the last boundary holds, for group 4's output array, the product of arguments 4 and 12 as launched. -/
theorem result4 (c : Dev nD) :
    Gen.W16 (F := Ideal) m ρ c (Proc.devRef .tc main_v14)
      = gemm (M := 512) (m ((c.tc : Thread nD τ).loc main_arg4)) (m ((c.tc : Thread nD τ).loc main_arg12)) :=
  (last5 m ρ c main_v14 (by decide)).trans ((Gen.W10_arr (F := Ideal) m ρ c 2).trans
    ((Region4.final (Gen.V9 (F := Ideal) m ρ) c).trans
      (congrArg₂ (gemm (M := 512)) (left4 m ρ c) (right4 m ρ c))))

/-- Result 5: the last boundary holds, for group 5's output array, the product of arguments 5 and 13 as launched. -/
theorem result5 (c : Dev nD) :
    Gen.W16 (F := Ideal) m ρ c (Proc.devRef .tc main_v17)
      = gemm (M := 1536) (m ((c.tc : Thread nD τ).loc main_arg5)) (m ((c.tc : Thread nD τ).loc main_arg13)) :=
  (last6 m ρ c main_v17 (by decide)).trans ((Gen.W12_arr (F := Ideal) m ρ c 2).trans
    ((Region5.final (Gen.V11 (F := Ideal) m ρ) c).trans
      (congrArg₂ (gemm (M := 1536)) (left5 m ρ c) (right5 m ρ c))))

/-- Result 6: the last boundary holds, for group 6's output array, the product of arguments 6 and 14 as launched. -/
theorem result6 (c : Dev nD) :
    Gen.W16 (F := Ideal) m ρ c (Proc.devRef .tc main_v20)
      = gemm (M := 2560) (m ((c.tc : Thread nD τ).loc main_arg6)) (m ((c.tc : Thread nD τ).loc main_arg14)) :=
  (last7 m ρ c main_v20 (by decide)).trans ((Gen.W14_arr (F := Ideal) m ρ c 2).trans
    ((Region6.final (Gen.V13 (F := Ideal) m ρ) c).trans
      (congrArg₂ (gemm (M := 2560)) (left6 m ρ c) (right6 m ρ c))))

/-- Result 7: the last boundary holds, for group 7's output array, the product of arguments 7 and 15 as launched. -/
theorem result7 (c : Dev nD) :
    Gen.W16 (F := Ideal) m ρ c (Proc.devRef .tc main_v23)
      = gemm (M := 768) (m ((c.tc : Thread nD τ).loc main_arg7)) (m ((c.tc : Thread nD τ).loc main_arg15)) :=
  (Gen.W16_arr (F := Ideal) m ρ c 2).trans
    ((Region7.final (Gen.V15 (F := Ideal) m ρ) c).trans
      (congrArg₂ (gemm (M := 768)) (left7 m ρ c) (right7 m ρ c)))

end Cert.KernelIdeal.Fold

end
-- ==== Proof.RefGemm.lean ====
/-
  The reference's side: each of its eight host matrix products is the specification `gemm` of its two
  operands, entry by entry. On the extended reals the host's product at output index i is the sum over the
  shared axis of the left operand at (row of i, k) times the right operand at (k, column of i); that sum is
  `gemm` at i by definition.
-/
import proofs.«133505_j38792144618090_1_alg».proof.Proof.Gen.ReferenceIdeal.Run
import proofs.«133505_j38792144618090_1_alg».proof.Proof.Gen.ReferenceIdeal.Read
import proofs.«133505_j38792144618090_1_alg».proof.Proof.GroupGemm

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.GroupGemm

/-- A sum over the shared axis whose operand indices are (row of i, k) and (k, column of i) is the product's
    entry at i. -/
theorem sum_eq_gemm {M : Nat} (a : (⟨2, ![M, 2048]⟩ : Shape).Idx → EReal) (b : (⟨2, ![2048, 8192]⟩ : Shape).Idx → EReal)
    (li : (⟨2, ![M, 8192]⟩ : Shape).Idx → Fin 2048 → (⟨2, ![M, 2048]⟩ : Shape).Idx)
    (ri : (⟨2, ![M, 8192]⟩ : Shape).Idx → Fin 2048 → (⟨2, ![2048, 8192]⟩ : Shape).Idx)
    (hl : ∀ i k, li i k = ix2 (i 0) k) (hr : ∀ i k, ri i k = ix2 k (i 1)) (i : (⟨2, ![M, 8192]⟩ : Shape).Idx) :
    ∑ k : Fin 2048, a (li i k) * b (ri i k) = gemm a b i :=
  Finset.sum_congr rfl fun k _ => congrArg₂ (· * ·) (congrArg a (hl i k)) (congrArg b (hr i k))

/-- Group 0: the host's product of arguments 0 and 8 is their `gemm`. -/
theorem dot0_eq (x : FVec Ideal S4096x2048 .f32) (y : FVec Ideal S2048x8192 .f32) :
    Host.dotGeneral dot_S4096x2048_S2048x8192_S4096x8192_1_0_0_1_n_n none x y = gemm (M := 4096) x y :=
  funext fun i => (Read.val_main_v0_apply x y i).trans
    (sum_eq_gemm (M := 4096) x y Read.lidx_main_v0 Read.ridx_main_v0
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 1: the host's product of arguments 1 and 9 is their `gemm`. -/
theorem dot1_eq (x : FVec Ideal S1024x2048 .f32) (y : FVec Ideal S2048x8192 .f32) :
    Host.dotGeneral dot_S1024x2048_S2048x8192_S1024x8192_1_0_0_1_n_n none x y = gemm (M := 1024) x y :=
  funext fun i => (Read.val_main_v1_apply x y i).trans
    (sum_eq_gemm (M := 1024) x y Read.lidx_main_v1 Read.ridx_main_v1
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 2: the host's product of arguments 2 and 10 is their `gemm`. -/
theorem dot2_eq (x : FVec Ideal S2048x2048 .f32) (y : FVec Ideal S2048x8192 .f32) :
    Host.dotGeneral dot_S2048x2048_S2048x8192_S2048x8192_1_0_0_1_n_n none x y = gemm (M := 2048) x y :=
  funext fun i => (Read.val_main_v2_apply x y i).trans
    (sum_eq_gemm (M := 2048) x y Read.lidx_main_v2 Read.ridx_main_v2
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 3: the host's product of arguments 3 and 11 is their `gemm`. -/
theorem dot3_eq (x : FVec Ideal S3072x2048 .f32) (y : FVec Ideal S2048x8192 .f32) :
    Host.dotGeneral dot_S3072x2048_S2048x8192_S3072x8192_1_0_0_1_n_n none x y = gemm (M := 3072) x y :=
  funext fun i => (Read.val_main_v3_apply x y i).trans
    (sum_eq_gemm (M := 3072) x y Read.lidx_main_v3 Read.ridx_main_v3
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 4: the host's product of arguments 4 and 12 is their `gemm`. -/
theorem dot4_eq (x : FVec Ideal S512x2048 .f32) (y : FVec Ideal S2048x8192 .f32) :
    Host.dotGeneral dot_S512x2048_S2048x8192_S512x8192_1_0_0_1_n_n none x y = gemm (M := 512) x y :=
  funext fun i => (Read.val_main_v4_apply x y i).trans
    (sum_eq_gemm (M := 512) x y Read.lidx_main_v4 Read.ridx_main_v4
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 5: the host's product of arguments 5 and 13 is their `gemm`. -/
theorem dot5_eq (x : FVec Ideal S1536x2048 .f32) (y : FVec Ideal S2048x8192 .f32) :
    Host.dotGeneral dot_S1536x2048_S2048x8192_S1536x8192_1_0_0_1_n_n none x y = gemm (M := 1536) x y :=
  funext fun i => (Read.val_main_v5_apply x y i).trans
    (sum_eq_gemm (M := 1536) x y Read.lidx_main_v5 Read.ridx_main_v5
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 6: the host's product of arguments 6 and 14 is their `gemm`. -/
theorem dot6_eq (x : FVec Ideal S2560x2048 .f32) (y : FVec Ideal S2048x8192 .f32) :
    Host.dotGeneral dot_S2560x2048_S2048x8192_S2560x8192_1_0_0_1_n_n none x y = gemm (M := 2560) x y :=
  funext fun i => (Read.val_main_v6_apply x y i).trans
    (sum_eq_gemm (M := 2560) x y Read.lidx_main_v6 Read.ridx_main_v6
      (fun i k => funext fun a => Fin.ext (by match a with | ⟨0, _⟩ => rfl | ⟨1, _⟩ => rfl))
      (fun i k => funext fun a => Fin.ext (by match a with | ⟨0, _⟩ => rfl | ⟨1, _⟩ => rfl)) i)

/-- Group 7: the host's product of arguments 7 and 15 is their `gemm`. -/
theorem dot7_eq (x : FVec Ideal S768x2048 .f32) (y : FVec Ideal S2048x8192 .f32) :
    Host.dotGeneral dot_S768x2048_S2048x8192_S768x8192_1_0_0_1_n_n none x y = gemm (M := 768) x y :=
  funext fun i => (Read.val_main_v7_apply x y i).trans
    (sum_eq_gemm (M := 768) x y Read.lidx_main_v7 Read.ridx_main_v7
      (fun i k => funext fun a => Fin.ext (by match a with | ⟨0, _⟩ => rfl | ⟨1, _⟩ => rfl))
      (fun i k => funext fun a => Fin.ext (by match a with | ⟨0, _⟩ => rfl | ⟨1, _⟩ => rfl)) i)

end Cert.ReferenceIdeal.RefValue

end
-- ==== Proof.lean ====
/-
  The certificate of the grouped matrix product: eight independent products a_r · b_r (r = 0 … 7), the left
  operands of 4096, 1024, 2048, 3072, 512, 1536, 2560 and 768 rows and 2048 columns, the right operands all
  2048 × 8192.

  The kernel converts each operand to a narrower float format (on the extended reals a change of format is the
  identity) and computes each product tile by tile, 256 rows by 2048 columns at a time, the shared axis of
  length 2048 taken whole and accumulated from zero. The reference computes each product whole. On the
  extended reals both are entry (i, j) ↦ Σ_k a(i, k) · b(k, j): a tile's entry is the same sum as the whole
  product's entry at the tile's place, the tiles cover the output, and a finite sum of extended reals does not
  depend on its order. No property of the inputs is used.

  The modules: the specification (`gemm`); one tile (the body's product read at an index, and a tile as a
  restriction of the whole product); one module per group (the output array after the group's launch); the
  run with its last boundary named, and the boundaries read back to the launch arguments; the reference's
  products as `gemm`. Below: the kernel's run with each result at `gemm` of the launch arguments, then the
  five claims.
-/
import proofs.«133505_j38792144618090_1_alg».proof.Defs
import proofs.«133505_j38792144618090_1_alg».proof.Proof.Gen.Kernel
import proofs.«133505_j38792144618090_1_alg».proof.Proof.Gen.Kernel.Skeleton
import proofs.«133505_j38792144618090_1_alg».proof.Proof.Gen.Kernel.Launch
import proofs.«133505_j38792144618090_1_alg».proof.Proof.Gen.Kernel.Points
import proofs.«133505_j38792144618090_1_alg».proof.Proof.Gen.Kernel.Frame
import proofs.«133505_j38792144618090_1_alg».proof.Proof.Gen.KernelIdeal
import proofs.«133505_j38792144618090_1_alg».proof.Proof.Gen.KernelIdeal.Skeleton
import proofs.«133505_j38792144618090_1_alg».proof.Proof.Gen.KernelIdeal.Launch
import proofs.«133505_j38792144618090_1_alg».proof.Proof.Gen.KernelIdeal.Points
import proofs.«133505_j38792144618090_1_alg».proof.Proof.Gen.KernelIdeal.Frame
import proofs.«133505_j38792144618090_1_alg».proof.Proof.Gen.ReferenceIdeal
import proofs.«133505_j38792144618090_1_alg».proof.Proof.Gen.Pre_finite_inputs
import proofs.«133505_j38792144618090_1_alg».proof.Proof.Gen.ReferenceIdeal.Run
import proofs.«133505_j38792144618090_1_alg».proof.Proof.KernelRun
import proofs.«133505_j38792144618090_1_alg».proof.Proof.Fold
import proofs.«133505_j38792144618090_1_alg».proof.Proof.RefGemm
import Idealize.ShloMosaic.Adequacy
import Idealize.ShloMosaic.Init

noncomputable section

/-! ## The kernel's run, read -/

namespace Cert.KernelIdeal.GemmValue

open Idealize.ShloMosaic Idealize.ShloMosaic.TcCoe Idealize.SL.Sem Idealize.ShloMosaic.ValueIdx
open Cert.KernelIdeal Cert.GroupGemm

variable (m : (ℓ : Loc nD τ sig) → Buf (Elt Ideal) ℓ) (ρ : Dev nD → PrngReg)

/-- Every weakly fair execution of @main ends with group r's output array holding the product of arguments r and
    8 + r as launched, and with the sixteen arguments unchanged. -/
theorem run : θ_run defs (onTc (τ := τ) (main (F := Ideal))) ⟨m, fun _ => 0, ρ⟩ (fun r => ∀ c : Dev nD,
      r.2.mem ((c.tc : Thread nD τ).loc main_v2) = gemm (M := 4096) (m ((c.tc : Thread nD τ).loc main_arg0)) (m ((c.tc : Thread nD τ).loc main_arg8))
      ∧ r.2.mem ((c.tc : Thread nD τ).loc main_v5) = gemm (M := 1024) (m ((c.tc : Thread nD τ).loc main_arg1)) (m ((c.tc : Thread nD τ).loc main_arg9))
      ∧ r.2.mem ((c.tc : Thread nD τ).loc main_v8) = gemm (M := 2048) (m ((c.tc : Thread nD τ).loc main_arg2)) (m ((c.tc : Thread nD τ).loc main_arg10))
      ∧ r.2.mem ((c.tc : Thread nD τ).loc main_v11) = gemm (M := 3072) (m ((c.tc : Thread nD τ).loc main_arg3)) (m ((c.tc : Thread nD τ).loc main_arg11))
      ∧ r.2.mem ((c.tc : Thread nD τ).loc main_v14) = gemm (M := 512) (m ((c.tc : Thread nD τ).loc main_arg4)) (m ((c.tc : Thread nD τ).loc main_arg12))
      ∧ r.2.mem ((c.tc : Thread nD τ).loc main_v17) = gemm (M := 1536) (m ((c.tc : Thread nD τ).loc main_arg5)) (m ((c.tc : Thread nD τ).loc main_arg13))
      ∧ r.2.mem ((c.tc : Thread nD τ).loc main_v20) = gemm (M := 2560) (m ((c.tc : Thread nD τ).loc main_arg6)) (m ((c.tc : Thread nD τ).loc main_arg14))
      ∧ r.2.mem ((c.tc : Thread nD τ).loc main_v23) = gemm (M := 768) (m ((c.tc : Thread nD τ).loc main_arg7)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c).1.trans (Fold.result0 m ρ c),
      (h c).2.1.trans (Fold.result1 m ρ c),
      (h c).2.2.1.trans (Fold.result2 m ρ c),
      (h c).2.2.2.1.trans (Fold.result3 m ρ c),
      (h c).2.2.2.2.1.trans (Fold.result4 m ρ c),
      (h c).2.2.2.2.2.1.trans (Fold.result5 m ρ c),
      (h c).2.2.2.2.2.2.1.trans (Fold.result6 m ρ c),
      (h c).2.2.2.2.2.2.2.1.trans (Fold.result7 m ρ c),
      (h c).2.2.2.2.2.2.2.2⟩)
    (NamedRun.run_named (F := Ideal) m ρ)

end Cert.KernelIdeal.GemmValue

/-! ## The claims -/

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run with its eight results dropped. -/
theorem frame_reference : Cert.frame_ReferenceIdeal := fun m ρ _ =>
  (θ_run Cert.ReferenceIdeal.defs _ _).mono (fun _ h c => (h c).2.2.2.2.2.2.2.2)
    (Cert.ReferenceIdeal.Value.run (F := Ideal) m ρ)

/-- The idealization rewrote no operation. -/
theorem preserves : Cert.preserves_Kernel_KernelIdeal := trivial

/-- From memories agreeing on the sixteen arguments both programs end with each of the eight results at the
    product of its two arguments: the kernel by its run read above, the reference because each host product is
    the same sum. -/
theorem algebraic : Cert.algebraic_KernelIdeal_ReferenceIdeal := by
  intro m ρ m' ρ' _ hagree
  refine ⟨_, _, _, _, _, _, _, _, Cert.KernelIdeal.GemmValue.run m ρ, ?_⟩
  refine (θ_run Cert.ReferenceIdeal.defs _ _).mono (fun r h c => ?_)
    (Cert.ReferenceIdeal.Value.run (F := Ideal) m' ρ')
  obtain ⟨a0, a1, a2, a3, a4, a5, a6, a7, a8, a9, a10, a11, a12, a13, a14, a15⟩ := hagree c
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · rw [a0, a8]; exact Cert.ReferenceIdeal.RefValue.dot0_eq _ _
  · rw [a1, a9]; exact Cert.ReferenceIdeal.RefValue.dot1_eq _ _
  · rw [a2, a10]; exact Cert.ReferenceIdeal.RefValue.dot2_eq _ _
  · rw [a3, a11]; exact Cert.ReferenceIdeal.RefValue.dot3_eq _ _
  · rw [a4, a12]; exact Cert.ReferenceIdeal.RefValue.dot4_eq _ _
  · rw [a5, a13]; exact Cert.ReferenceIdeal.RefValue.dot5_eq _ _
  · rw [a6, a14]; exact Cert.ReferenceIdeal.RefValue.dot6_eq _ _
  · rw [a7, a15]; exact Cert.ReferenceIdeal.RefValue.dot7_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
